-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S_ : Shape := ⟨0, ![]⟩
abbrev S1024x128 : Shape := ⟨2, ![1024, 128]⟩
abbrev S1024x384 : Shape := ⟨2, ![1024, 384]⟩
abbrev S8x2048x64 : Shape := ⟨3, ![8, 2048, 64]⟩
abbrev S1x2048x1024 : Shape := ⟨3, ![1, 2048, 1024]⟩
abbrev S1x2048x64 : Shape := ⟨3, ![1, 2048, 64]⟩
abbrev S2048x128 : Shape := ⟨2, ![2048, 128]⟩
abbrev S2048x1024 : Shape := ⟨2, ![2048, 1024]⟩
abbrev S2048x384 : Shape := ⟨2, ![2048, 384]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩
abbrev S1024 : Shape := ⟨1, ![1024]⟩
abbrev S1x1024x64 : Shape := ⟨3, ![1, 1024, 64]⟩

abbrev nBuf : Space → Nat
  | .hbm => 15
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x384, .f32⟩
  | .hbm, ⟨14, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x384, .f32⟩
  | .local _ .vmem, ⟨3, _⟩ => ⟨S1x2048x64, .f32⟩
  | .local _ .vmem, ⟨4, _⟩ => ⟨S1x2048x64, .f32⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1024x64_S1024x128_000_0640 : S1024x64.Pads (![0, 0] : Fin 2 → Nat) ![0, 64] ![0, 0] S1024x128
  h_S_ : 0 < S_.numel
  concatenates_S1024x128_S1024x128_S1024x128_S1024x384_d1 : Shape.Concatenates [S1024x128, S1024x128, S1024x128] S1024x384 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  slices_S2048x384_o0_0_S2048x128 : S2048x384.Slices ![0, 0] S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  slices_S2048x384_o0_128_S2048x128 : S2048x384.Slices ![0, 128] S2048x128
  slices_S2048x384_o0_256_S2048x128 : S2048x384.Slices ![0, 256] S2048x128
  inb_S2048x128_S1024x128_0_0 : ∀ a, (![0, 0] : Fin 2 → Nat) a + S1024x128.size a ≤ S2048x128.size a
  h_S1024x128 : 0 < S1024x128.numel
  transposes_S1024x128_p1_0_S128x1024 : S1024x128.Transposes [1, 0] S128x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x128 : S1024x1.Broadcasts S1024x128
  slices_S1024x128_o0_0_S1024x64 : S1024x128.Slices ![0, 0] S1024x64
  inb_S1x2048x64_S1x1024x64_0_0_0 : ∀ a, (![0, 0, 0] : Fin 3 → Nat) a + S1x1024x64.size a ≤ S1x2048x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S2048x128_S1024x128_1024_0 : ∀ a, (![1024, 0] : Fin 2 → Nat) a + S1024x128.size a ≤ S2048x128.size a
  inb_S1x2048x64_S1x1024x64_0_1024_0 : ∀ a, (![0, 1024, 0] : Fin 3 → Nat) a + S1x1024x64.size a ≤ S1x2048x64.size a
  dot_S2048x1024_S1024x384_S2048x384_1_0_0_1_n_n_wf : DotDims.WF S2048x1024 S1024x384 S2048x384 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KiFrameKit.lean ====
/-
  The program up to its one launch, and what the launch's result says about the argument arrays.

  Before the launch the host widens each of the three weight matrices by 64 zero columns and lays the three
  side by side; none of these lines writes an argument array, so the launch finds the four arguments as
  they were. The sequence array is the first window's array and is only read; the three weight matrices bypass
  the launch. Hence a run that ends with every window's array at what the schedule computes and every bypassing
  buffer as the launch found it leaves the four arguments unchanged.
-/
import proofs.«401925_j24807731101992_3_alg».proof.Proof.Gen.KernelIdeal.Launch
import proofs.«401925_j24807731101992_3_alg».proof.Proof.Gen.KernelIdeal.Skeleton
import proofs.«401925_j24807731101992_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the launch -/

/-- The seven stretches of host lines before the launch, in order. -/
abbrev preOps : List (List (HloOp τ sig (Elt F))) :=
  [hostOps0, hostOps0_1, hostOps0_2, hostOps0_3, hostOps0_4, hostOps0_5, hostOps0_6]

/-- Core c's buffers when the launch is reached: after the host lines before it. -/
abbrev V (c : Dev nD) (b : Ref sig .tc) : Buf (Elt F) ((c : Thread nD τ).loc b) :=
  StableHlo.after (List.flatten (preOps (F := F))) (fun b => m (c, b)) b

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩

theorem preOps_fresh : (preOps (F := F)).Forall fun ops => ops.Forall fun op => op.fresh = ∅ := by
  simp only [List.Forall]; repeat' constructor

/-- The program is its host lines followed by the launch. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (preOps (F := F)) preOps_sub preOps_fresh main_chain

/-- No host line writes an argument array: each writes only its own result buffer. -/
theorem V_arg (b : Ref sig .tc)
    (hb : b ≠ main_c ∧ b ≠ main_call0_v0 ∧ b ≠ main_v0 ∧ b ≠ main_c_0 ∧ b ≠ main_call1_v0 ∧ b ≠ main_v1
      ∧ b ≠ main_c_1 ∧ b ≠ main_call2_v0 ∧ b ≠ main_v2 ∧ b ≠ main_v3) (c : Dev nD) :
    V m c b = m ((c : Thread nD τ).loc b) := by
  obtain ⟨h1, h2, h3, h4, h5, h6, h7, h8, h9, h10⟩ := hb
  refine StableHlo.after_of_forall_not_mem (b := Proc.devRef .tc b) _ _ (List.forall_iff_forall_mem.mp ?_)
  simp only [preOps, hostOps0, hostOps0_1, hostOps0_2, hostOps0_3, hostOps0_4, hostOps0_5, hostOps0_6,
    List.flatten_cons, List.flatten_nil, List.append_nil, List.cons_append, List.nil_append, List.Forall]
  refine ⟨?_, ?_, ?_, ?_, ?_, ?_, ?_, ?_, ?_, ?_⟩ <;>
    (show _ ∉ ({_} : Finset _); rw [Finset.mem_singleton]; apply StableHlo.devRef_ne_of_ne; assumption)

theorem V_main_arg0 (c : Dev nD) : V m c main_arg0 = m ((c : Thread nD τ).loc main_arg0) :=
  V_arg m main_arg0 (by decide) c
theorem V_main_arg1 (c : Dev nD) : V m c main_arg1 = m ((c : Thread nD τ).loc main_arg1) :=
  V_arg m main_arg1 (by decide) c
theorem V_main_arg2 (c : Dev nD) : V m c main_arg2 = m ((c : Thread nD τ).loc main_arg2) :=
  V_arg m main_arg2 (by decide) c
theorem V_main_arg3 (c : Dev nD) : V m c main_arg3 = m ((c : Thread nD τ).loc main_arg3) :=
  V_arg m main_arg3 (by decide) c

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sequence window's current staging buffer holds its block at every point, for any proof data whose
    array is the launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds its block at every point: fetched once, never moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- From a run that ends with every window's array at what the proof data computes and every bypassing buffer
    as the launch found it: the four argument arrays end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.KernelIdeal.Fr

end
-- ==== Proof.KiFrameRun.lean ====
/-
  The kernel body on whole staging buffers: what it leaves in the output block, as the list of its stores.

  The body reads the sequence block and the weight block, stores the three projections whole into the three
  scratch buffers, reads them back 1024 rows at a time, and stores the first 1024 and the last 1024 output rows.
  It runs to the end whatever the output block and the scratch buffers held before, the two input blocks are left
  as they were, and the output block and each scratch buffer end with the body's stores written over what they
  held. The stores are found by running the body, not written out here.
-/
import proofs.«401925_j24807731101992_3_alg».proof.Proof.KiFrameKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- One staging buffer of the output window, through which the output block's contents are stated. -/
abbrev VO0_2 : View sig .tc .vmem S1x2048x64 .f32 := (Memref.whole cc0_stg2_0 : Memref sig .tc .vmem S1x2048x64 .f32).view

/-- Each window's current staging buffer at point t, and that it is a whole buffer. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .f32 := win0_2.stage (cfg0.slots t 2)
abbrev hs0_2 (t : Fin cfg0.N) : (ms0_2 t).IsWhole := hstage0_2 ((cfg0.slots t 2).cast nbuf0_2)

/-- The three scratch buffers: whole buffers of the kernel's own. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S2048x128 .bf16 := Memref.whole cc0_scratch2

/-- What the launch keeps for the body between points: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 4000000 in
/-- The stores the body leaves in the output block and in each scratch buffer (last first), with the proof that
    from the two input blocks at their contents and the other four buffers at anything the body runs to the end,
    the inputs as they were and the other four with those stores written. -/
noncomputable def kernelRun0 (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) :
    Σ' (L2 : List (View.Piece (Elt F) S1x2048x64 .f32)) (LS0 : List (View.Piece (Elt F) S2048x128 .bf16)) (LS1 : List (View.Piece (Elt F) S2048x128 .bf16)),
      { LS2 : List (View.Piece (Elt F) S2048x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)
                ∗ (∃ f, arg6.view.loc (c : Thread nD τ) ↦[arg6.view.set]{fullShare} arg6.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.KernelIdeal.Fr

end
-- ==== Proof.KiFrame.lean ====
/-
  The launch: at every grid point the body finds the point's sequence block and the weight block in the input
  windows' staging buffers, leaves them there, and leaves its stores in the output window's staging buffer,
  which the schedule writes back; the three scratch buffers are the body's own between points, at whatever
  contents. So the program runs to the end, and the four argument arrays end as they began.
-/
import proofs.«401925_j24807731101992_3_alg».proof.Proof.KiFrameRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's stores into the output block tile it: two blocks of 1024 rows. -/
theorem cover0_2 (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) (y : S1x2048x64.Idx) :
    ∃ pc ∈ (kernelRun0 c i arg1 harg1 arg2 harg2 arg3 harg3 arg4 harg4 arg5 harg5 arg6 harg6 x0 x1).1, y ∈ pc.1.set :=
  View.cover_of_tiledL (kernelRun0 c i arg1 harg1 arg2 harg2 arg3 harg3 arg4 harg4 arg5 harg5 arg6 harg6 x0 x1).1 S1x1024x64.size (by sl_kernel_rfl) y

/-- What the body leaves in the output block: its stores read back. -/
def out0_2 (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) : Vec F S1x2048x64 .f32 :=
  VO0_2.read (Elt F) (VO0_2.writes (Elt F) VO0_2.junk (kernelRun0 c i arg1 harg1 arg2 harg2 arg3 harg3 arg4 harg4 arg5 harg5 arg6 harg6 x0 x1).1)

/-- The output block after point t. -/
abbrev outAt (c : Dev nD) (t : Fin cfg0.N) : Vec F S1x2048x64 .f32 :=
  out0_2 c (grid0.coords t) (ms0_0 t) (hs0_0 t) (ms0_1 t) (hs0_1 t) (ms0_2 t) (hs0_2 t)
    scM0_0 (Memref.isWhole_whole _) scM0_1 (Memref.isWhole_whole _) scM0_2 (Memref.isWhole_whole _) (iblk m c 0 t) (iblk m c 1 t)

/-- The proof data of the launch on core c: the arrays as the launch finds them; after the body at point t the
    input windows' buffers at their blocks and the output window's at the body's stores; between points the
    scratch buffers at anything and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- A scratch buffer with some stores written over what it held is the buffer at some contents. -/
theorem scratch_back (c : Dev nD) (M : Memref sig .tc .vmem S2048x128 .bf16) (L : List (View.Piece (Elt F) S2048x128 .bf16)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  unfold owns
  iexists _, _; isplitr
  swap; · iexact H
  ipureintro; rfl

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 2000000 in
/-- The body at any point: the input windows' buffers hold their blocks, so the run applies; the scratch buffers
    come out of what the launch keeps between points and go back at whatever the body left in them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, PhiA0_eq]
  unfold outAt out0_2
  iintro ⟨⟨⟨HS0, HS1, HS2⟩, Hg⟩, Ho, ⟨%d0, H0⟩, ⟨%d1, H1⟩, ⟨%d2, H2⟩⟩
  iapply ((kernelRun0 c (grid0.coords t) _ _ _ _ _ _ _ _ _ _ _ _ (iblk m c 0 t) (iblk m c 1 t)).2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, ⟨%es0, HS0⟩, ⟨%es1, HS1⟩, ⟨%es2, HS2⟩⟩
  isplitl [HS0 HS1 HS2 Hg]
  · isplitl [HS0 HS1 HS2]
    · isplitl [HS0]
      · iapply (scratch_back c _ _); iexists _; iexact HS0
      isplitl [HS1]
      · iapply (scratch_back c _ _); iexists _; iexact HS1
      iapply (scratch_back c _ _); iexists _; iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _ _ _)

/-- The launch's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting, with every window's array at what
    the schedule computes from the proof data and every bypassing buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, nothing faulting, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KerTerm.lean ====
/-
  The two blocks of output rows one grid point stores, as terms over the body's own arithmetic.

  The body first fills three scratch buffers of 2048 rows with the query, key and value projections of the
  point's sequence, each stored whole, and from then on reads them back 1024 rows at a time. A read of rows
  0 to 1023 or of rows 1024 to 2047 of a buffer filled by one whole store is that store's payload at the rows
  read. With the reads written so, the first 1024 output rows are the first attention step's result on the top
  tiles, and the last 1024 output rows are the two-step result on the bottom query tile against both key and
  value tiles.
-/
import proofs.«401925_j24807731101992_3_alg».proof.Proof.Gen.KernelIdeal.Skeleton
import Idealize.ShloMosaic.Lib.Pipeline.Value

noncomputable section

namespace Cert.KernelIdeal.Ker

open Idealize.ShloMosaic Idealize.SL.Sem Cert.KernelIdeal Cert.KernelIdeal.Gen

variable {F : FTy → Type} [FloatOps F] [Named F]

/-- Rows 0 to 1023 of a scratch buffer. -/
abbrev rTop : Rect S2048x128 := Rect.unit (s := S2048x128) ![0, 0] S1024x128.size inb_S2048x128_S1024x128_0_0
/-- Rows 1024 to 2047 of a scratch buffer. -/
abbrev rBot : Rect S2048x128 := Rect.unit (s := S2048x128) ![1024, 0] S1024x128.size inb_S2048x128_S1024x128_1024_0

/-- The query, key and value projections of the point's sequence, as the body stores them. -/
abbrev qAll (x0 : Vec F S1x2048x1024 .f32) (x3 : Vec F S1024x384 .f32) : Vec F S2048x128 .bf16 := k0_pay3 x0 x3
abbrev kAll (x0 : Vec F S1x2048x1024 .f32) (x3 : Vec F S1024x384 .f32) : Vec F S2048x128 .bf16 := k0_pay4 x0 x3
abbrev vAll (x0 : Vec F S1x2048x1024 .f32) (x3 : Vec F S1024x384 .f32) : Vec F S2048x128 .bf16 := k0_pay5 x0 x3

/-- The row numbers 0 to 1023 as a column, which the mask of a diagonal tile compares with the column numbers. -/
abbrev rowIota : IVec S1024x1 32 := iota .tc S1024x1 32 [0] iota_S1024x1_d0_w32

/-- The first 1024 output rows: one attention step on the top query, key and value tiles. -/
def blockTop (x0 : Vec F S1x2048x1024 .f32) (x3 : Vec F S1024x384 .f32) : Vec F S1x1024x64 .f32 :=
  k0_pay10 (k0_pay6 (F := F)) (k0_pay7 (F := F)) (k0_pay8 (F := F)) (View.ld (vAll x0 x3) rTop)
    (k0_pay9 (View.ld (qAll x0 x3) rTop) (View.ld (kAll x0 x3) rTop)) rowIota

/-- The last 1024 output rows: the bottom query tile against the top tiles, then against the bottom tiles. -/
def blockBot (x0 : Vec F S1x2048x1024 .f32) (x3 : Vec F S1024x384 .f32) : Vec F S1x1024x64 .f32 :=
  k0_pay1 (k0_pay16 (View.ld (qAll x0 x3) rBot) (k0_pay11 (F := F)) (k0_pay12 (F := F)) (k0_pay13 (F := F))
    (View.ld (vAll x0 x3) rTop)
    (k0_pay14 (View.ld (qAll x0 x3) rBot) (View.ld (kAll x0 x3) rTop))
    (k0_pay15 (View.ld (qAll x0 x3) rBot) (View.ld (kAll x0 x3) rTop))
    (View.ld (kAll x0 x3) rBot) (View.ld (vAll x0 x3) rBot))

end Cert.KernelIdeal.Ker

end
-- ==== Proof.AttnSpec.lean ====
/-
  Single-head causal attention on one sequence of 2048 positions, over the reals, in two arrangements.

  The plain arrangement: a position t attends to the positions u ≤ t; the scores of row t are shifted by their
  maximum over u ≤ t, exponentiated, normalised by their sum, and the normalised weights average the value rows.

  The tiled arrangement works on tiles of 1024 rows whose query, key and value tiles have 128 columns. A row of
  the first tile sees the first key tile under the mask s ≤ r and divides the weighted value sum by the weight sum
  at the end. A row of the second tile first sees the whole first key tile, shifted by that tile's row maximum,
  then the second key tile under the mask, shifted by the maximum of both; what was accumulated before is
  rescaled by exp (old maximum - new maximum), and the division comes last.

  Between the two sit the projections: one product with the three weight matrices laid side by side, each
  widened from 64 to 128 columns by zero columns.
-/
import Mathlib.Analysis.SpecialFunctions.Exp
import Mathlib.Algebra.BigOperators.Fin

noncomputable section

namespace Cert.Attn

open Finset

/-- Row r of the first tile, as a position of the sequence. -/
def lo (r : Fin 1024) : Fin 2048 := ⟨r.val, by have := r.isLt; omega⟩
/-- Row r of the second tile, as a position of the sequence. -/
def hi (r : Fin 1024) : Fin 2048 := ⟨1024 + r.val, by have := r.isLt; omega⟩

/-- Column d of the query part, the key part and the value part of the 384 projected columns. -/
def qcol (d : Fin 128) : Fin 384 := ⟨d.val, by have := d.isLt; omega⟩
def kcol (d : Fin 128) : Fin 384 := ⟨128 + d.val, by have := d.isLt; omega⟩
def vcol (d : Fin 128) : Fin 384 := ⟨256 + d.val, by have := d.isLt; omega⟩

/-- One of the 64 true columns among the 128 of a widened part. -/
def wide (d : Fin 64) : Fin 128 := ⟨d.val, by have := d.isLt; omega⟩

/-- Entry (t, d) of the product of the sequence X with a weight matrix W. -/
def proj {n : ℕ} (X : Fin 2048 → Fin 1024 → ℝ) (W : Fin 1024 → Fin n → ℝ) (t : Fin 2048) (d : Fin n) : ℝ :=
  ∑ e : Fin 1024, X t e * W e d

/-- The three weight matrices side by side, each followed by 64 zero columns. -/
def wcat (Wq Wk Wv : Fin 1024 → Fin 64 → ℝ) (e : Fin 1024) (j : Fin 384) : ℝ :=
  if h : j.val < 64 then Wq e ⟨j.val, h⟩
  else if h : 128 ≤ j.val ∧ j.val < 192 then Wk e ⟨j.val - 128, by omega⟩
  else if h : 256 ≤ j.val ∧ j.val < 320 then Wv e ⟨j.val - 256, by omega⟩
  else 0

/-! ## The plain arrangement -/

section Plain

variable (X : Fin 2048 → Fin 1024 → ℝ) (Wq Wk Wv : Fin 1024 → Fin 64 → ℝ) (c : ℝ)

/-- The scaled score of query position t against key position u. -/
def score (t u : Fin 2048) : ℝ := (∑ d : Fin 64, proj X Wq t d * proj X Wk u d) * c

/-- The largest score of row t among the positions it may attend to. -/
def rowMax (t : Fin 2048) : ℝ :=
  (univ.filter fun u : Fin 2048 => u ≤ t).sup' ⟨t, by simp⟩ (score X Wq Wk c t)

/-- The unnormalised weight of position u for row t: zero above the diagonal. -/
def weight (t u : Fin 2048) : ℝ :=
  if u ≤ t then Real.exp (score X Wq Wk c t u - rowMax X Wq Wk c t) else 0

/-- Row t of the attention output: the value rows averaged by the normalised weights. -/
def plainOut (t : Fin 2048) (d : Fin 64) : ℝ :=
  ∑ u : Fin 2048, weight X Wq Wk c t u / (∑ u' : Fin 2048, weight X Wq Wk c t u') * proj X Wv u d

end Plain

/-! ## The tiled arrangement, on tiles of 1024 rows and 128 columns -/

section Tiled

variable (c : ℝ)

/-- The scaled score of row r of a query tile against row s of a key tile. -/
def tileScore (Q K : Fin 1024 → Fin 128 → ℝ) (r s : Fin 1024) : ℝ := (∑ d : Fin 128, Q r d * K s d) * c

/-- First tile: the largest score of row r under the mask s ≤ r. -/
def topMax (Q K : Fin 1024 → Fin 128 → ℝ) (r : Fin 1024) : ℝ :=
  (univ.filter fun s : Fin 1024 => s ≤ r).sup' ⟨r, by simp⟩ (tileScore c Q K r)

/-- First tile: the weight of key row s for row r. -/
def topW (Q K : Fin 1024 → Fin 128 → ℝ) (r s : Fin 1024) : ℝ :=
  if s ≤ r then Real.exp (tileScore c Q K r s - topMax c Q K r) else 0

/-- First tile: the weighted value sum divided by the weight sum. -/
def topOut (Q K V : Fin 1024 → Fin 128 → ℝ) (r : Fin 1024) (j : Fin 128) : ℝ :=
  (∑ s : Fin 1024, topW c Q K r s * V s j) / (∑ s : Fin 1024, topW c Q K r s)

/-- Second tile, first step: the largest score of row r against the whole first key tile. -/
def botMax1 (Q K0 : Fin 1024 → Fin 128 → ℝ) (r : Fin 1024) : ℝ :=
  univ.sup' ⟨⟨0, by norm_num⟩, mem_univ _⟩ (tileScore c Q K0 r)

/-- Second tile, first step: the weights against the first key tile. -/
def botW1 (Q K0 : Fin 1024 → Fin 128 → ℝ) (r s : Fin 1024) : ℝ :=
  Real.exp (tileScore c Q K0 r s - botMax1 c Q K0 r)

/-- Second tile, second step: the largest score so far, the masked second key tile included. -/
def botMax2 (Q K0 K1 : Fin 1024 → Fin 128 → ℝ) (r : Fin 1024) : ℝ :=
  max (botMax1 c Q K0 r) ((univ.filter fun s : Fin 1024 => s ≤ r).sup' ⟨r, by simp⟩ (tileScore c Q K1 r))

/-- Second tile: the factor that rescales what the first step accumulated. -/
def botScale (Q K0 K1 : Fin 1024 → Fin 128 → ℝ) (r : Fin 1024) : ℝ :=
  Real.exp (botMax1 c Q K0 r - botMax2 c Q K0 K1 r)

/-- Second tile, second step: the weights against the second key tile under the mask. -/
def botW2 (Q K0 K1 : Fin 1024 → Fin 128 → ℝ) (r s : Fin 1024) : ℝ :=
  if s ≤ r then Real.exp (tileScore c Q K1 r s - botMax2 c Q K0 K1 r) else 0

/-- Second tile: the rescaled first step plus the second step, value sum over weight sum. -/
def botOut (Q K0 K1 V0 V1 : Fin 1024 → Fin 128 → ℝ) (r : Fin 1024) (j : Fin 128) : ℝ :=
  (botScale c Q K0 K1 r * (∑ s : Fin 1024, botW1 c Q K0 r s * V0 s j) + ∑ s : Fin 1024, botW2 c Q K0 K1 r s * V1 s j)
    / (botScale c Q K0 K1 r * (∑ s : Fin 1024, botW1 c Q K0 r s) + ∑ s : Fin 1024, botW2 c Q K0 K1 r s)

end Tiled

/-! ## The tiles the projection fills -/

/-- The query, key or value tile of one half of the sequence: the projected columns of that part. -/
def tile (X : Fin 2048 → Fin 1024 → ℝ) (W : Fin 1024 → Fin 384 → ℝ) (half : Fin 1024 → Fin 2048)
    (part : Fin 128 → Fin 384) (r : Fin 1024) (d : Fin 128) : ℝ := proj X W (half r) (part d)

end Cert.Attn

end
-- ==== Proof.KiValue.lean ====
/-
  The output array after the run, entry by entry, and the two input blocks the body reads, entry by entry.

  The grid has one point per sequence: point b stages sequence b of the input array, the whole weight array, and
  block b of the output array, and no two points write the same output block. So entry (b, r, d) of the output
  array after the run is entry (0, r, d) of what the body left at point b; entry (0, r, e) of the sequence block
  at point b is entry (b, r, e) of the input array; and the weight block is the whole array the host lines
  built: the three weight matrices, each widened by 64 columns of the converted integer 0, side by side.
-/
import proofs.«401925_j24807731101992_3_alg».proof.Proof.KiFrame
import proofs.«401925_j24807731101992_3_alg».proof.Proof.KerTerm
import proofs.«401925_j24807731101992_3_alg».proof.Proof.AttnSpec
import Idealize.ShloMosaic.Lib.ValueIdx
import Idealize.ShloMosaic.Lib.Pipeline.Value
import Idealize.ShloMosaic.Lib.StableHlo.Run

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- The windows' block indices at point t, decided over the eight points: the sequence window and the output
    window are at block (t, 0, 0), the weight window at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Distinct points write distinct output blocks. -/
theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- Block t of the output array after the run is what point t wrote back. -/
theorem blocks2 (c : Dev nD) (t : Fin cfg0.N) :
    ((cfg0.win 2).blk t).view.read (Elt F) ((dats m 0 c).arrAt 2 cfg0.N) = (dats m 0 c).flushed 2 t :=
  (dats m 0 c).read_blk_arrAt_eq_flushed 2 disjoint2 cfg0.N t t.isLt (flush0_2 t)

/-- Sequence number b as a grid point. -/
def pt (b : Fin 8) : Fin cfg0.N := ⟨b.val, by rw [show cfg0.N = 8 from N_0]; exact b.isLt⟩

/-- Entry (b, r, d) of the output array after the run: entry (0, r, d) of the body's block at point b. -/
theorem out_entry (c : Dev nD) (b : Fin 8) (r : Fin 2048) (d : Fin 64) :
    (dats m 0 c).arrAt 2 cfg0.N (ix3 b r d) = outAt m c (pt b) (ix3 (0 : Fin 1) r d) := by
  have h := congrFun (blocks2 m c (pt b)) (ix3 (0 : Fin 1) r d)
  have hf : (dats m 0 c).flushed 2 (pt b) (ix3 (0 : Fin 1) r d) = outAt m c (pt b) (ix3 (0 : Fin 1) r d) := by
    show (cfg0.win 2).cut (grid0.coords (pt b)) ((dats m 0 c).after 2 (pt b)) (ix3 (0 : Fin 1) r d) = _
    rw [after0_2]; rfl
  rw [← hf, ← h]
  show (dats m 0 c).arrAt 2 cfg0.N (ix3 b r d)
    = (dats m 0 c).arrAt 2 cfg0.N (((cfg0.win 2).blk (pt b)).view.emb (ix3 (0 : Fin 1) r d))
  congr 1
  obtain ⟨-, -, -, -, -, e0, e1, e2⟩ := idx_facts (pt b)
  funext a; apply Fin.ext
  match a with
  | ⟨0, _⟩ => show b.val = win0_2.index (pt b) (0 : Fin 3) * 1 + 1 * 0; rw [e0]; show b.val = b.val * 1 + 1 * 0; omega
  | ⟨1, _⟩ => show r.val = win0_2.index (pt b) (1 : Fin 3) * 2048 + 1 * r.val; rw [e1]; omega
  | ⟨2, _⟩ => show d.val = win0_2.index (pt b) (2 : Fin 3) * 64 + 1 * d.val; rw [e2]; omega

/-- Entry (0, r, e) of the sequence block at point b: entry (b, r, e) of the input array. -/
theorem xblk_entry (c : Dev nD) (b : Fin 8) (r : Fin 2048) (e : Fin 1024) :
    iblk m c 0 (pt b) (ix3 (0 : Fin 1) r e) = m ((c : Thread nD τ).loc main_arg0) (ix3 b r e) := by
  unfold iblk
  show V m c main_arg0 (((cfg0.win 0).blk (pt b)).view.emb (ix3 (0 : Fin 1) r e)) = _
  rw [V_main_arg0]
  congr 1
  obtain ⟨e0, e1, e2, -⟩ := idx_facts (pt b)
  funext a; apply Fin.ext
  match a with
  | ⟨0, _⟩ => show win0_0.index (pt b) (0 : Fin 3) * 1 + 1 * 0 = b.val; rw [e0]; show b.val * 1 + 1 * 0 = b.val; omega
  | ⟨1, _⟩ => show win0_0.index (pt b) (1 : Fin 3) * 2048 + 1 * r.val = r.val; rw [e1]; omega
  | ⟨2, _⟩ => show win0_0.index (pt b) (2 : Fin 3) * 1024 + 1 * e.val = e.val; rw [e2]; omega

/-- Entry (e, j) of the weight block at any point: entry (e, j) of the array the host lines built. -/
theorem wblk_entry (c : Dev nD) (t : Fin cfg0.N) (e : Fin 1024) (j : Fin 384) :
    iblk m c 1 t (ix2 e j) = V m c main_v3 (ix2 e j) := by
  unfold iblk
  show V m c main_v3 (((cfg0.win 1).blk t).view.emb (ix2 e j)) = _
  congr 1
  obtain ⟨-, -, -, e0, e1, -⟩ := idx_facts t
  funext a; apply Fin.ext
  match a with
  | ⟨0, _⟩ => show win0_1.index t (0 : Fin 2) * 1024 + 1 * e.val = e.val; rw [e0]; omega
  | ⟨1, _⟩ => show win0_1.index t (1 : Fin 2) * 384 + 1 * j.val = j.val; rw [e1]; omega

/-- The weight array the launch finds: the three argument matrices, each widened by 64 columns of the
    converted integer 0, side by side. -/
theorem V_main_v3 (c : Dev nD) :
    (V m c main_v3 : S1024x384.Idx → Elt F .f32)
      = concatenate S1024x384 1
          [⟨S1024x128, pad S1024x128 ![0, 0] ![0, 64] ![0, 0] (m ((c : Thread nD τ).loc main_arg1)) (sitofp (F := F) .f32 (constantI S_ 32 0#32)) pads_S1024x64_S1024x128_000_0640 h_S_⟩,
           ⟨S1024x128, pad S1024x128 ![0, 0] ![0, 64] ![0, 0] (m ((c : Thread nD τ).loc main_arg2)) (sitofp (F := F) .f32 (constantI S_ 32 0#32)) pads_S1024x64_S1024x128_000_0640 h_S_⟩,
           ⟨S1024x128, pad S1024x128 ![0, 0] ![0, 64] ![0, 0] (m ((c : Thread nD τ).loc main_arg3)) (sitofp (F := F) .f32 (constantI S_ 32 0#32)) pads_S1024x64_S1024x128_000_0640 h_S_⟩]
          concatenates_S1024x128_S1024x128_S1024x128_S1024x384_d1 := by
  dsimp only [V, preOps]
  simp only [hostOps0, hostOps0_1, hostOps0_2, hostOps0_3, hostOps0_4, hostOps0_5, hostOps0_6,
    List.flatten_cons, List.flatten_nil, List.append_nil, List.cons_append, List.nil_append]
  after_results
  rfl

/-! ## What the body leaves, as the two blocks of output rows -/

open Cert.KernelIdeal.Ker Cert.Attn

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 0 to 1023 and rows 1024 to 2047 of the output block. -/
abbrev rOutTop : Rect S1x2048x64 := Rect.unit (s := S1x2048x64) ![0, 0, 0] S1x1024x64.size inb_S1x2048x64_S1x1024x64_0_0_0
abbrev rOutBot : Rect S1x2048x64 := Rect.unit (s := S1x2048x64) ![0, 1024, 0] S1x1024x64.size inb_S1x2048x64_S1x1024x64_0_1024_0

set_option maxHeartbeats 1000000 in
/-- The body's stores into the output block, last first: the last 1024 rows, then the first 1024 rows, each the
    corresponding attention result on the projections read back from the scratch buffers. -/
theorem pieces_eq (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) :
    (kernelRun0 c i arg1 harg1 arg2 harg2 arg3 harg3 arg4 harg4 arg5 harg5 arg6 harg6 x0 x1).1
      = [⟨rOutBot, blockBot x0 x1⟩, ⟨rOutTop, blockTop x0 x1⟩] := by
  unfold kernelRun0
  dsimp only
  sl_unfold_run_names
  simp only [View.readAt_eq_ld, harg1.read_unread, harg2.read_unread, View.ld_unit_zero (S := S1x2048x1024) hz3,
    View.ld_unit_zero (S := S1024x384) hz2, View.readCov_eq_canon', View.canon_unit_zero (S := S2048x128) hz2]
  rfl

/-- What the body leaves in the output block at point t: the two blocks of rows, over the point's input blocks. -/
theorem outAt_eq (c : Dev nD) (t : Fin cfg0.N) :
    outAt m c t = View.canon [⟨rOutBot, blockBot (iblk m c 0 t) (iblk m c 1 t)⟩, ⟨rOutTop, blockTop (iblk m c 0 t) (iblk m c 1 t)⟩] := by
  unfold outAt out0_2
  rw [View.read_writes_junk_eq_canon, pieces_eq]

/-- Row 1024 + r of the output block is row r of the second block of rows. -/
theorem outAt_bot (c : Dev nD) (t : Fin cfg0.N) (r : Fin 1024) (d : Fin 64) :
    outAt m c t (ix3 (0 : Fin 1) (hi r) d) = blockBot (iblk m c 0 t) (iblk m c 1 t) (ix3 (0 : Fin 1) r d) := by
  rw [outAt_eq]
  have he : ix3 (0 : Fin 1) (hi r) d = rOutBot.emb (ix3 (0 : Fin 1) r d) := by
    funext a; apply Fin.ext
    match a with
    | ⟨0, _⟩ => show 0 = 0 + 1 * 0; omega
    | ⟨1, _⟩ => show 1024 + r.val = 1024 + 1 * r.val; omega
    | ⟨2, _⟩ => show d.val = 0 + 1 * d.val; omega
  rw [he]
  exact View.canon_cons_emb rOutBot _ _ _

/-- A row of the first tile lies outside the last 1024 rows. -/
theorem top_not_mem (r : Fin 1024) (d : Fin 64) : ix3 (0 : Fin 1) (lo r) d ∉ (rOutBot : Rect S1x2048x64).set := by
  intro h
  rw [Rect.mem_set_unit] at h
  have h1 := (h 1).1
  have h2 : (1024 : ℕ) ≤ r.val := h1
  have := r.isLt
  omega

/-- Of a store of the last 1024 rows over a store of the first 1024 rows, a row of the first tile reads the
    first store's payload. -/
theorem canon_top {Val : EltTy → Type} [∀ e, Nonempty (Val e)] (A B : S1x1024x64.Idx → Val .f32) (r : Fin 1024) (d : Fin 64) :
    View.canon [(⟨rOutBot, A⟩ : View.Piece Val S1x2048x64 .f32), ⟨rOutTop, B⟩] (ix3 (0 : Fin 1) (lo r) d) = B (ix3 (0 : Fin 1) r d) := by
  refine (View.canon_cons_of_not_mem (⟨rOutBot, A⟩ : View.Piece Val S1x2048x64 .f32) [⟨rOutTop, B⟩] (top_not_mem r d)).trans ?_
  have he : ix3 (0 : Fin 1) (lo r) d = rOutTop.emb (ix3 (0 : Fin 1) r d) := by
    funext a; apply Fin.ext
    match a with
    | ⟨0, _⟩ => show 0 = 0 + 1 * 0; omega
    | ⟨1, _⟩ => show r.val = 0 + 1 * r.val; omega
    | ⟨2, _⟩ => show d.val = 0 + 1 * d.val; omega
  rw [he]
  exact View.canon_cons_emb rOutTop _ _ _

/-- Row r of the output block, r below 1024, is row r of the first block of rows. -/
theorem outAt_top (c : Dev nD) (t : Fin cfg0.N) (r : Fin 1024) (d : Fin 64) :
    outAt m c t (ix3 (0 : Fin 1) (lo r) d) = blockTop (iblk m c 0 t) (iblk m c 1 t) (ix3 (0 : Fin 1) r d) := by
  rw [outAt_eq]
  exact canon_top _ _ r d

end Cert.KernelIdeal.Fr

end
-- ==== Proof.KFrameKit.lean ====
/-
  The program up to its one launch, and what the launch's result says about the argument arrays.

  Before the launch the host widens each of the three weight matrices by 64 zero columns and lays the three
  side by side; none of these lines writes an argument array, so the launch finds the four arguments as
  they were. The sequence array is the first window's array and is only read; the three weight matrices bypass
  the launch. Hence a run that ends with every window's array at what the schedule computes and every bypassing
  buffer as the launch found it leaves the four arguments unchanged.
-/
import proofs.«401925_j24807731101992_3_alg».proof.Proof.Gen.Kernel.Launch
import proofs.«401925_j24807731101992_3_alg».proof.Proof.Gen.Kernel.Skeleton
import proofs.«401925_j24807731101992_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- The seven stretches of host lines before the launch, in order. -/
abbrev preOps : List (List (HloOp τ sig (Elt F))) :=
  [hostOps0, hostOps0_1, hostOps0_2, hostOps0_3, hostOps0_4, hostOps0_5, hostOps0_6]

/-- Core c's buffers when the launch is reached: after the host lines before it. -/
abbrev V (c : Dev nD) (b : Ref sig .tc) : Buf (Elt F) ((c : Thread nD τ).loc b) :=
  StableHlo.after (List.flatten (preOps (F := F))) (fun b => m (c, b)) b

theorem preOps_sub : (preOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩

theorem preOps_fresh : (preOps (F := F)).Forall fun ops => ops.Forall fun op => op.fresh = ∅ := by
  simp only [List.Forall]; repeat' constructor

/-- The program is its host lines followed by the launch. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (preOps (F := F)) preOps_sub preOps_fresh main_chain

/-- No host line writes an argument array: each writes only its own result buffer. -/
theorem V_arg (b : Ref sig .tc)
    (hb : b ≠ main_c ∧ b ≠ main_call0_v0 ∧ b ≠ main_v0 ∧ b ≠ main_c_0 ∧ b ≠ main_call1_v0 ∧ b ≠ main_v1
      ∧ b ≠ main_c_1 ∧ b ≠ main_call2_v0 ∧ b ≠ main_v2 ∧ b ≠ main_v3) (c : Dev nD) :
    V m c b = m ((c : Thread nD τ).loc b) := by
  obtain ⟨h1, h2, h3, h4, h5, h6, h7, h8, h9, h10⟩ := hb
  refine StableHlo.after_of_forall_not_mem (b := Proc.devRef .tc b) _ _ (List.forall_iff_forall_mem.mp ?_)
  simp only [preOps, hostOps0, hostOps0_1, hostOps0_2, hostOps0_3, hostOps0_4, hostOps0_5, hostOps0_6,
    List.flatten_cons, List.flatten_nil, List.append_nil, List.cons_append, List.nil_append, List.Forall]
  refine ⟨?_, ?_, ?_, ?_, ?_, ?_, ?_, ?_, ?_, ?_⟩ <;>
    (show _ ∉ ({_} : Finset _); rw [Finset.mem_singleton]; apply StableHlo.devRef_ne_of_ne; assumption)

theorem V_main_arg0 (c : Dev nD) : V m c main_arg0 = m ((c : Thread nD τ).loc main_arg0) :=
  V_arg m main_arg0 (by decide) c
theorem V_main_arg1 (c : Dev nD) : V m c main_arg1 = m ((c : Thread nD τ).loc main_arg1) :=
  V_arg m main_arg1 (by decide) c
theorem V_main_arg2 (c : Dev nD) : V m c main_arg2 = m ((c : Thread nD τ).loc main_arg2) :=
  V_arg m main_arg2 (by decide) c
theorem V_main_arg3 (c : Dev nD) : V m c main_arg3 = m ((c : Thread nD τ).loc main_arg3) :=
  V_arg m main_arg3 (by decide) c

/-! ## The windows' blocks -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The sequence window's current staging buffer holds its block at every point, for any proof data whose
    array is the launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds its block at every point: fetched once, never moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- From a run that ends with every window's array at what the proof data computes and every bypassing buffer
    as the launch found it: the four argument arrays end as they began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

end Cert.Kernel.Fr

end
-- ==== Proof.KFrameRun.lean ====
/-
  The kernel body on whole staging buffers: what it leaves in the output block, as the list of its stores.

  The body reads the sequence block and the weight block, stores the three projections whole into the three
  scratch buffers, reads them back 1024 rows at a time, and stores the first 1024 and the last 1024 output rows.
  It runs to the end whatever the output block and the scratch buffers held before, the two input blocks are left
  as they were, and the output block and each scratch buffer end with the body's stores written over what they
  held. The stores are found by running the body, not written out here.
-/
import proofs.«401925_j24807731101992_3_alg».proof.Proof.KFrameKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One staging buffer of the output window, through which the output block's contents are stated. -/
abbrev VO0_2 : View sig .tc .vmem S1x2048x64 .f32 := (Memref.whole cc0_stg2_0 : Memref sig .tc .vmem S1x2048x64 .f32).view

/-- Each window's current staging buffer at point t, and that it is a whole buffer. -/
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .f32 := win0_2.stage (cfg0.slots t 2)
abbrev hs0_2 (t : Fin cfg0.N) : (ms0_2 t).IsWhole := hstage0_2 ((cfg0.slots t 2).cast nbuf0_2)

/-- The three scratch buffers: whole buffers of the kernel's own. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S2048x128 .bf16 := Memref.whole cc0_scratch2

/-- What the launch keeps for the body between points: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 4000000 in
/-- The stores the body leaves in the output block and in each scratch buffer (last first), with the proof that
    from the two input blocks at their contents and the other four buffers at anything the body runs to the end,
    the inputs as they were and the other four with those stores written. -/
noncomputable def kernelRun0 (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) :
    Σ' (L2 : List (View.Piece (Elt F) S1x2048x64 .f32)) (LS0 : List (View.Piece (Elt F) S2048x128 .bf16)) (LS1 : List (View.Piece (Elt F) S2048x128 .bf16)),
      { LS2 : List (View.Piece (Elt F) S2048x128 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)
                ∗ (∃ f, arg6.view.loc (c : Thread nD τ) ↦[arg6.view.set]{fullShare} arg6.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.Kernel.Fr

end
-- ==== Proof.KFrame.lean ====
/-
  The launch: at every grid point the body finds the point's sequence block and the weight block in the input
  windows' staging buffers, leaves them there, and leaves its stores in the output window's staging buffer,
  which the schedule writes back; the three scratch buffers are the body's own between points, at whatever
  contents. So the program runs to the end, and the four argument arrays end as they began.
-/
import proofs.«401925_j24807731101992_3_alg».proof.Proof.KFrameRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stores into the output block tile it: two blocks of 1024 rows. -/
theorem cover0_2 (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) (y : S1x2048x64.Idx) :
    ∃ pc ∈ (kernelRun0 c i arg1 harg1 arg2 harg2 arg3 harg3 arg4 harg4 arg5 harg5 arg6 harg6 x0 x1).1, y ∈ pc.1.set :=
  View.cover_of_tiledL (kernelRun0 c i arg1 harg1 arg2 harg2 arg3 harg3 arg4 harg4 arg5 harg5 arg6 harg6 x0 x1).1 S1x1024x64.size (by sl_kernel_rfl) y

/-- What the body leaves in the output block: its stores read back. -/
def out0_2 (c : Dev nD) (i : grid0.Coords)
    (arg1 : Memref sig .tc .vmem S1x2048x1024 .f32) (harg1 : arg1.IsWhole) (arg2 : Memref sig .tc .vmem S1024x384 .f32) (harg2 : arg2.IsWhole)
    (arg3 : Memref sig .tc .vmem S1x2048x64 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x0 : Vec F S1x2048x1024 .f32) (x1 : Vec F S1024x384 .f32) : Vec F S1x2048x64 .f32 :=
  VO0_2.read (Elt F) (VO0_2.writes (Elt F) VO0_2.junk (kernelRun0 c i arg1 harg1 arg2 harg2 arg3 harg3 arg4 harg4 arg5 harg5 arg6 harg6 x0 x1).1)

/-- The output block after point t. -/
abbrev outAt (c : Dev nD) (t : Fin cfg0.N) : Vec F S1x2048x64 .f32 :=
  out0_2 c (grid0.coords t) (ms0_0 t) (hs0_0 t) (ms0_1 t) (hs0_1 t) (ms0_2 t) (hs0_2 t)
    scM0_0 (Memref.isWhole_whole _) scM0_1 (Memref.isWhole_whole _) scM0_2 (Memref.isWhole_whole _) (iblk m c 0 t) (iblk m c 1 t)

/-- The proof data of the launch on core c: the arrays as the launch finds them; after the body at point t the
    input windows' buffers at their blocks and the output window's at the body's stores; between points the
    scratch buffers at anything and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- A scratch buffer with some stores written over what it held is the buffer at some contents. -/
theorem scratch_back (c : Dev nD) (M : Memref sig .tc .vmem S2048x128 .bf16) (L : List (View.Piece (Elt F) S2048x128 .bf16)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  unfold owns
  iexists _, _; isplitr
  swap; · iexact H
  ipureintro; rfl

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 2000000 in
/-- The body at any point: the input windows' buffers hold their blocks, so the run applies; the scratch buffers
    come out of what the launch keeps between points and go back at whatever the body left in them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, PhiA0_eq]
  unfold outAt out0_2
  iintro ⟨⟨⟨HS0, HS1, HS2⟩, Hg⟩, Ho, ⟨%d0, H0⟩, ⟨%d1, H1⟩, ⟨%d2, H2⟩⟩
  iapply ((kernelRun0 c (grid0.coords t) _ _ _ _ _ _ _ _ _ _ _ _ (iblk m c 0 t) (iblk m c 1 t)).2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, ⟨%es0, HS0⟩, ⟨%es1, HS1⟩, ⟨%es2, HS2⟩⟩
  isplitl [HS0 HS1 HS2 Hg]
  · isplitl [HS0 HS1 HS2]
    · isplitl [HS0]
      · iapply (scratch_back c _ _); iexists _; iexact HS0
      isplitl [HS1]
      · iapply (scratch_back c _ _); iexists _; iexact HS1
      iapply (scratch_back c _ _); iexists _; iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _ _ _)

/-- The launch's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting, with every window's array at what
    the schedule computes from the proof data and every bypassing buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, nothing faulting, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.Consts.lean ====
/-
  The float constants the two programs spell, as the extended reals their patterns denote.
-/
import Idealize.ShloMosaic.PureOps.Ideal

noncomputable section

namespace Cert.Consts

open Idealize.ShloMosaic

/-- The pattern of 0.125 denotes the real 1/8. -/
theorem ofBits_eighth : Ideal.ofBits .f32 0x3E000000#32 = (((1 / 8 : ℝ)) : EReal) := by
  simp [Ideal.ofBits, Ideal.ieee, -EReal.coe_mul]; norm_num

/-- The pattern of minus infinity denotes the bottom element. -/
theorem ofBits_neg_inf : Ideal.ofBits .f32 0xFF800000#32 = (⊥ : EReal) := by
  simp [Ideal.ofBits, Ideal.ieee]

/-- The pattern of plus infinity denotes the top element. -/
theorem ofBits_pos_inf : Ideal.ofBits .f32 0x7F800000#32 = (⊤ : EReal) := by
  simp [Ideal.ofBits, Ideal.ieee]

/-- The pattern of +0.0 denotes 0. -/
theorem ofBits_zero : Ideal.ofBits .f32 0x00000000#32 = (0 : EReal) := by
  simp [Ideal.ofBits, Ideal.ieee]

end Cert.Consts

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.TileOps.lean ====
/-
  The vector operations one attention step is made of, each read at an entry of its 1024-row tile, at the
  extended reals: the scaled scores of a query tile against a key tile, the causal mask of a diagonal tile, a
  row's maximum with and without the mask, a row's sum, the weights times a value tile, and the first 64 columns
  of a result written as an output block.
-/
import proofs.«401925_j24807731101992_3_alg».proof.Proof.Gen.KernelIdeal.Skeleton
import proofs.«401925_j24807731101992_3_alg».proof.Proof.KerTerm
import proofs.«401925_j24807731101992_3_alg».proof.Proof.AttnSpec
import proofs.«401925_j24807731101992_3_alg».proof.Proof.Consts
import proofs.«401925_j24807731101992_3_alg».proof.Proof.LibVecRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Ker

open Idealize.ShloMosaic Idealize.ShloMosaic.ValueIdx Idealize.SL.Sem Cert.KernelIdeal Cert.KernelIdeal.Gen Cert.Attn Finset

/-- The mask fill is named minus infinity: it denotes the bottom element. -/
theorem neg_big_bot : Named.named (F := Ideal) κ "neg_big" (φ := .f32) 0xF149F2CA#32 = (⊥ : EReal) :=
  -- The table of named constants gives this name the bottom element.
  IdealRules.named_const.ideal_named_scalar _ _ _ _ rfl

/-- A finite sum of real numbers, each seen as an extended real, is the real sum seen so. -/
theorem sum_coe {n : ℕ} (f : Fin n → ℝ) : (∑ k : Fin n, ((f k : ℝ) : EReal)) = ((∑ k : Fin n, f k : ℝ) : EReal) :=
  -- The inclusion of the reals keeps zero and sums, so it commutes with a finite sum.
  (map_sum (⟨⟨Real.toEReal, EReal.coe_zero⟩, EReal.coe_add⟩ : ℝ →+ EReal) f univ).symm

/-! The operand coordinates of the product of a query tile with a transposed key tile, one axis at a time: the left operand reads the result's row
    and the contraction coordinate, the right operand the contraction coordinate and the result's column. -/
theorem qk_lhs0 (i : S1024x1024.Idx) (q : dot_S1024x128_S128x1024_S1024x1024_1_0_0_1_n_n.contr.Idx) : (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem qk_lhs1 (i : S1024x1024.Idx) (q : dot_S1024x128_S128x1024_S1024x1024_1_0_0_1_n_n.contr.Idx) : (dot_S1024x128_S128x1024_S1024x1024_1_0_0_1_n_n.lhsIdx i q 1).val = (q ⟨0, by decide⟩).val :=
  dot_S1024x128_S128x1024_S1024x1024_1_0_0_1_n_n.lhsIdx_val_of_single rfl i q
theorem qk_rhs0 (i : S1024x1024.Idx) (q : dot_S1024x128_S128x1024_S1024x1024_1_0_0_1_n_n.contr.Idx) : (dot_S1024x128_S128x1024_S1024x1024_1_0_0_1_n_n.rhsIdx i q 0).val = (q ⟨0, by decide⟩).val :=
  dot_S1024x128_S128x1024_S1024x1024_1_0_0_1_n_n.rhsIdx_val_of_single rfl i q
theorem qk_rhs1 (i : S1024x1024.Idx) (q : dot_S1024x128_S128x1024_S1024x1024_1_0_0_1_n_n.contr.Idx) : (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-! The operand coordinates of the product of the weights with a value tile, one axis at a time: the left operand reads the result's row
    and the contraction coordinate, the right operand the contraction coordinate and the result's column. -/
theorem pv_lhs0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem pv_lhs1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
theorem pv_rhs0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
theorem pv_rhs1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- A 1024 x 128 block times a 128 x 1024 block into a zero accumulator, at (r, j). -/
theorem qk_read {φ₁ φ₂ : FTy} (a : FVec Ideal S1024x128 φ₁) (b : FVec Ideal S128x1024 φ₂) (r : Fin 1024) (j : Fin 1024) :
    matmul dot_S1024x128_S128x1024_S1024x1024_1_0_0_1_n_n none a b (constant S1024x1024 .f32 0x00000000#32) (ix2 r j) = ∑ s : Fin 128, a (ix2 r s) * b (ix2 s j) := by
  -- Into the zero accumulator the product is the sum over the contraction index; that index is its one coordinate,
  -- and at the two operands the coordinates are (r, s) and (s, j).
  refine (Ideal.matmul_constant_zero_apply dot_S1024x128_S128x1024_S1024x1024_1_0_0_1_n_n none a b (ix2 r j)).trans ?_
  rw [← Equiv.sum_comp (contrEquiv1 dot_S1024x128_S128x1024_S1024x1024_1_0_0_1_n_n 128 rfl rfl).symm]
  refine Finset.sum_congr rfl fun s _ => ?_
  have hs := contrEquiv1_symm_val dot_S1024x128_S128x1024_S1024x1024_1_0_0_1_n_n 128 rfl rfl s
  have el : dot_S1024x128_S128x1024_S1024x1024_1_0_0_1_n_n.lhsIdx (ix2 r j) ((contrEquiv1 dot_S1024x128_S128x1024_S1024x1024_1_0_0_1_n_n 128 rfl rfl).symm s) = ix2 r s :=
    funext fun c => Fin.ext (by
      match c with
      | ⟨0, _⟩ => exact qk_lhs0 _ _
      | ⟨1, _⟩ => exact (qk_lhs1 _ _).trans hs)
  have er : dot_S1024x128_S128x1024_S1024x1024_1_0_0_1_n_n.rhsIdx (ix2 r j) ((contrEquiv1 dot_S1024x128_S128x1024_S1024x1024_1_0_0_1_n_n 128 rfl rfl).symm s) = ix2 s j :=
    funext fun c => Fin.ext (by
      match c with
      | ⟨0, _⟩ => exact (qk_rhs0 _ _).trans hs
      | ⟨1, _⟩ => exact qk_rhs1 _ _)
  rw [el, er]

/-- A 1024 x 1024 block times a 1024 x 128 block into a zero accumulator, at (r, j). -/
theorem pv_prod_read {φ₁ φ₂ : FTy} (a : FVec Ideal S1024x1024 φ₁) (b : FVec Ideal S1024x128 φ₂) (r : Fin 1024) (j : Fin 128) :
    matmul dot_S1024x1024_S1024x128_S1024x128_1_0_0_1_n_n none a b (constant S1024x128 .f32 0x00000000#32) (ix2 r j) = ∑ s : Fin 1024, a (ix2 r s) * b (ix2 s j) := by
  -- Into the zero accumulator the product is the sum over the contraction index; that index is its one coordinate,
  -- and at the two operands the coordinates are (r, s) and (s, j).
  refine (Ideal.matmul_constant_zero_apply dot_S1024x1024_S1024x128_S1024x128_1_0_0_1_n_n none a b (ix2 r j)).trans ?_
  rw [← Equiv.sum_comp (contrEquiv1 dot_S1024x1024_S1024x128_S1024x128_1_0_0_1_n_n 1024 rfl rfl).symm]
  refine Finset.sum_congr rfl fun s _ => ?_
  have hs := contrEquiv1_symm_val dot_S1024x1024_S1024x128_S1024x128_1_0_0_1_n_n 1024 rfl rfl s
  have el : dot_S1024x1024_S1024x128_S1024x128_1_0_0_1_n_n.lhsIdx (ix2 r j) ((contrEquiv1 dot_S1024x1024_S1024x128_S1024x128_1_0_0_1_n_n 1024 rfl rfl).symm s) = ix2 r s :=
    funext fun c => Fin.ext (by
      match c with
      | ⟨0, _⟩ => exact pv_lhs0 _ _
      | ⟨1, _⟩ => exact (pv_lhs1 _ _).trans hs)
  have er : dot_S1024x1024_S1024x128_S1024x128_1_0_0_1_n_n.rhsIdx (ix2 r j) ((contrEquiv1 dot_S1024x1024_S1024x128_S1024x128_1_0_0_1_n_n 1024 rfl rfl).symm s) = ix2 s j :=
    funext fun c => Fin.ext (by
      match c with
      | ⟨0, _⟩ => exact (pv_rhs0 _ _).trans hs
      | ⟨1, _⟩ => exact pv_rhs1 _ _)
  rw [el, er]

/-- The transpose of a 1024 x 128 tile, at (d, s): the tile at (s, d). -/
theorem transpose_read {α : Type} (k : S1024x128.Idx → α) (d : Fin 128) (s : Fin 1024) :
    transpose S128x1024 [1, 0] k transposes_S1024x128_p1_0_S128x1024 (ix2 d s) = k (ix2 s d) := by
  -- Result axis 0 is source axis 1 and result axis 1 is source axis 0.
  refine transpose_apply [1, 0] k transposes_S1024x128_p1_0_S128x1024 (ix2 d s) (ix2 s d) fun b => ?_
  match b with
  | ⟨0, _⟩ => rfl
  | ⟨1, _⟩ => rfl

/-- The scaled product of a query tile with the transpose of a key tile, at (r, s). -/
theorem score_term_read (q k : FVec Ideal S1024x128 .bf16) (Q K : Fin 1024 → Fin 128 → ℝ)
    (hq : ∀ r d, q (ix2 r d) = ((Q r d : ℝ) : EReal)) (hk : ∀ s d, k (ix2 s d) = ((K s d : ℝ) : EReal)) (r s : Fin 1024) :
    mulf (matmul dot_S1024x128_S128x1024_S1024x1024_1_0_0_1_n_n none q (transpose S128x1024 [1, 0] k transposes_S1024x128_p1_0_S128x1024)
        (constant S1024x1024 .f32 0x00000000#32))
      (broadcast S1024x1024 (Scalar.ofBits (F := Ideal) .f32 0x3E000000#32)) (ix2 r s)
      = ((tileScore (1 / 8) Q K r s : ℝ) : EReal) := by
  -- The product at (r, s) is the sum over the 128 columns of q (r, d) times k (s, d); at real entries the sum is
  -- the real sum, and the splat factor is the real 1/8.
  rw [mulf_apply, qk_read, broadcast_apply]
  have hc : Scalar.ofBits (F := Ideal) .f32 0x3E000000#32 = (((1 / 8 : ℝ)) : EReal) := Cert.Consts.ofBits_eighth
  rw [hc]
  have hsum : (∑ d : Fin 128, q (ix2 r d) * transpose S128x1024 [1, 0] k transposes_S1024x128_p1_0_S128x1024 (ix2 d s))
      = ((∑ d : Fin 128, Q r d * K s d : ℝ) : EReal) := by
    rw [← sum_coe]
    refine Finset.sum_congr rfl fun d _ => ?_
    rw [transpose_read, hq, hk, EReal.coe_mul]
  rw [hsum, ← EReal.coe_mul]
  rfl

/-- The scaled scores of a query tile against a key tile, at (r, s): the row products summed over the 128
    columns, times 1/8. -/
theorem score_read (q k : Vec Ideal S1024x128 .bf16) (Q K : Fin 1024 → Fin 128 → ℝ)
    (hq : ∀ r d, q (ix2 r d) = ((Q r d : ℝ) : EReal)) (hk : ∀ s d, k (ix2 s d) = ((K s d : ℝ) : EReal)) (r s : Fin 1024) :
    k0_pay9 (F := Ideal) q k (ix2 r s) = ((tileScore (1 / 8) Q K r s : ℝ) : EReal) :=
  -- The payload is the product with the transposed key tile times the splat of 1/8.
  score_term_read q k Q K hq hk r s

/-- The same block of scores as the second tile's first step spells it. -/
theorem score_read' (q k : Vec Ideal S1024x128 .bf16) (Q K : Fin 1024 → Fin 128 → ℝ)
    (hq : ∀ r d, q (ix2 r d) = ((Q r d : ℝ) : EReal)) (hk : ∀ s d, k (ix2 s d) = ((K s d : ℝ) : EReal)) (r s : Fin 1024) :
    k0_pay14 (F := Ideal) q k (ix2 r s) = ((tileScore (1 / 8) Q K r s : ℝ) : EReal) :=
  -- The same product and the same factor.
  score_term_read q k Q K hq hk r s

/-- The column numbers 0 to 1023 as a row. -/
abbrev colIota : IVec S1x1024 32 := iota .tc S1x1024 32 [1] iota_S1x1024_d1_w32

/-- The row numbers as a column, broadcast along the rows, at (r, s): the word of r. -/
theorem rowIota_bc (r s : Fin 1024) :
    broadcastTo S1024x1024 rowIota broadcasts_S1024x1_S1024x1024 (ix2 r s) = BitVec.ofNat 32 r.val := by
  -- The broadcast reads the column at (r, 0), where the numbering along axis 0 reads r.
  refine (Cert.LibVecRows.broadcastTo_col_apply rowIota broadcasts_S1024x1_S1024x1024 r s).trans ?_
  exact iota_single_apply .tc S1024x1 32 0 iota_S1024x1_d0_w32 _

/-- The column numbers as a row, broadcast along the columns, at (r, s): the word of s. -/
theorem colIota_bc (r s : Fin 1024) :
    broadcastTo S1024x1024 colIota broadcasts_S1x1024_S1024x1024 (ix2 r s) = BitVec.ofNat 32 s.val := by
  -- The broadcast reads the row at (0, s), where the numbering along axis 1 reads s.
  refine (broadcastTo_apply colIota broadcasts_S1x1024_S1024x1024 (ix2 r s) (ix2 (0 : Fin 1) s) fun ax => ?_).trans ?_
  · match ax with
    | ⟨0, _⟩ => rfl
    | ⟨1, _⟩ => rfl
  · exact iota_single_apply .tc S1x1024 32 1 iota_S1x1024_d1_w32 _

/-- A signed comparison of two 32-bit words of naturals below 2^31 is the comparison of the naturals. -/
theorem sge_ofNat (a b : ℕ) (ha : a < 2 ^ 31) (hb : b < 2 ^ 31) :
    IntOp.cmpi .sge (BitVec.ofNat 32 a) (BitVec.ofNat 32 b) = if b ≤ a then 1#1 else 0#1 := by
  -- Below 2^31 the sign bit is clear, so each word read as a signed integer is the natural itself.
  have ea : (BitVec.ofNat 32 a).toInt = a := by
    rw [BitVec.toInt_eq_msb_cond, BitVec.msb_eq_false_iff_two_mul_lt.mpr (by simp [BitVec.toNat_ofNat]; omega)]
    simp [BitVec.toNat_ofNat]; omega
  have eb : (BitVec.ofNat 32 b).toInt = b := by
    rw [BitVec.toInt_eq_msb_cond, BitVec.msb_eq_false_iff_two_mul_lt.mpr (by simp [BitVec.toNat_ofNat]; omega)]
    simp [BitVec.toNat_ofNat]; omega
  unfold IntOp.cmpi
  simp only [BitVec.sle, ea, eb]
  by_cases h : b ≤ a
  · rw [if_pos h]; simp [h]
  · rw [if_neg h]; simp [h]

/-- The causal mask of a diagonal tile at (r, s): set exactly when s ≤ r. -/
theorem mask_read (r s : Fin 1024) :
    cmpi .sge (broadcastTo S1024x1024 rowIota broadcasts_S1024x1_S1024x1024)
        (broadcastTo S1024x1024 colIota broadcasts_S1x1024_S1024x1024) (ix2 r s)
      = if s ≤ r then 1#1 else 0#1 := by
  -- At (r, s) the comparison is of the words of r and s, both below 1024.
  show IntOp.cmpi .sge (broadcastTo S1024x1024 rowIota broadcasts_S1024x1_S1024x1024 (ix2 r s))
      (broadcastTo S1024x1024 colIota broadcasts_S1x1024_S1024x1024 (ix2 r s)) = _
  rw [rowIota_bc, colIota_bc, sge_ofNat r.val s.val (by have := r.isLt; omega) (by have := s.isLt; omega)]
  rfl

/-- Scores under the mask of a diagonal tile, at (r, s): the score where s ≤ r, bottom elsewhere. -/
theorem masked_read (T : FVec Ideal S1024x1024 .f32) (r s : Fin 1024) :
    select (cmpi .sge (broadcastTo S1024x1024 rowIota broadcasts_S1024x1_S1024x1024)
        (broadcastTo S1024x1024 colIota broadcasts_S1x1024_S1024x1024)) T
        (broadcast S1024x1024 (Named.named (F := Ideal) κ "neg_big" (φ := .f32) 0xF149F2CA#32)) (ix2 r s)
      = if s ≤ r then T (ix2 r s) else (⊥ : EReal) := by
  -- The select keeps the score where the mask bit is set and takes the fill, the bottom element, elsewhere.
  rw [select_apply, mask_read, broadcast_apply, neg_big_bot]
  by_cases h : s ≤ r
  · rw [if_pos h, if_pos h, select_one]
  · rw [if_neg h, if_neg h, select_zero]

/-- The fold of the maximum from the bottom element over all indices is the supremum over them. -/
theorem fold_max_bot {n : ℕ} (g : Fin n → EReal) : (univ : Finset (Fin n)).fold max (⊥ : EReal) g = univ.sup g := by
  -- Each side is the least upper bound of the values: it is above each of them and below every common bound.
  refine le_antisymm ?_ ?_
  · rw [Finset.fold_max_le]
    exact ⟨bot_le, fun x hx => Finset.le_sup (f := g) hx⟩
  · refine Finset.sup_le fun x hx => ?_
    exact (Finset.le_fold_max (g x)).mpr (Or.inr ⟨x, hx, le_rfl⟩)

/-- The supremum over all indices of real values under a mask, bottom off the mask, is the largest real value on
    the mask, when the mask holds somewhere. -/
theorem sup_masked {n : ℕ} (g : Fin n → ℝ) (P : Fin n → Prop) [DecidablePred P] (hne : (univ.filter P).Nonempty) :
    (univ : Finset (Fin n)).sup (fun s => if P s then ((g s : ℝ) : EReal) else (⊥ : EReal))
      = (((univ.filter P).sup' hne g : ℝ) : EReal) := by
  -- Every term is below the largest value on the mask (bottom is below everything), and that value is attained
  -- at an index of the mask, where it is one of the terms.
  refine le_antisymm (Finset.sup_le fun s _ => ?_) ?_
  · by_cases h : P s
    · rw [if_pos h]
      exact EReal.coe_le_coe_iff.2 (Finset.le_sup' g (mem_filter.2 ⟨mem_univ s, h⟩))
    · rw [if_neg h]; exact bot_le
  · obtain ⟨s, hs, heq⟩ := Finset.exists_mem_eq_sup' hne g
    rw [heq]
    have hP : P s := (mem_filter.1 hs).2
    refine le_trans (le_of_eq ?_)
      (Finset.le_sup (f := fun s => if P s then ((g s : ℝ) : EReal) else (⊥ : EReal)) (mem_univ s))
    exact (if_pos hP).symm

/-- The supremum over all indices of real values is their largest. -/
theorem sup_coe {n : ℕ} (g : Fin n → ℝ) (hne : (univ : Finset (Fin n)).Nonempty) :
    (univ : Finset (Fin n)).sup (fun s => ((g s : ℝ) : EReal)) = ((univ.sup' hne g : ℝ) : EReal) := by
  -- Every term is below the largest value, which is attained and so is one of the terms.
  refine le_antisymm (Finset.sup_le fun s hs => EReal.coe_le_coe_iff.2 (Finset.le_sup' g hs)) ?_
  obtain ⟨s, hs, heq⟩ := Finset.exists_mem_eq_sup' hne g
  rw [heq]
  exact Finset.le_sup (f := fun s => ((g s : ℝ) : EReal)) hs

/-- The maximum of row r of a 1024 x 1024 block, from minus infinity: the supremum of the row. -/
theorem rowmax_read (T : FVec Ideal S1024x1024 .f32) (r : Fin 1024) :
    multiReduction .maximumf [1] S1024 T 0xFF800000#32 reduces_S1024x1024_S1024 (.inl rfl) rfl (ix1 r)
      = (univ : Finset (Fin 1024)).sup fun s => T (ix2 r s) := by
  -- The reduction over the second axis is the fold of the maximum from the accumulator, which denotes the bottom
  -- element, over that axis's coordinates; the row index with the coordinate inserted is (r, s).
  refine (Ideal.multiReduction_maximumf_single T _ reduces_S1024x1024_S1024 (.inl rfl) rfl (ix1 r)).trans ?_
  refine (congrArg (fun b => (univ : Finset (Fin (S1024x1024.size 1))).fold max b (T ∘ reduces_S1024x1024_S1024.lift (ix1 r)))
    Cert.Consts.ofBits_neg_inf).trans ?_
  refine (fold_max_bot _).trans ?_
  refine Finset.sup_congr rfl fun k _ => congrArg T ?_
  funext c
  match c with
  | ⟨0, _⟩ => exact Fin.ext rfl
  | ⟨1, _⟩ => exact Fin.ext rfl

/-- The maximum of row r of masked real scores: the largest real score among s ≤ r. -/
theorem rowmax_masked (T : FVec Ideal S1024x1024 .f32) (f : Fin 1024 → Fin 1024 → ℝ)
    (hT : ∀ r s, T (ix2 r s) = if s ≤ r then ((f r s : ℝ) : EReal) else (⊥ : EReal)) (r : Fin 1024) :
    multiReduction .maximumf [1] S1024 T 0xFF800000#32 reduces_S1024x1024_S1024 (.inl rfl) rfl (ix1 r)
      = (((univ.filter fun s : Fin 1024 => s ≤ r).sup' ⟨r, by simp⟩ (f r) : ℝ) : EReal) := by
  -- The row's supremum, with bottom off the mask s ≤ r, which holds at s = r.
  rw [rowmax_read]
  simp only [hT]
  exact sup_masked (f r) (fun s => s ≤ r) _

/-- The maximum of row r of real scores with no mask: the largest real score of the row. -/
theorem rowmax_full (T : FVec Ideal S1024x1024 .f32) (f : Fin 1024 → Fin 1024 → ℝ)
    (hT : ∀ r s, T (ix2 r s) = ((f r s : ℝ) : EReal)) (r : Fin 1024) :
    multiReduction .maximumf [1] S1024 T 0xFF800000#32 reduces_S1024x1024_S1024 (.inl rfl) rfl (ix1 r)
      = ((univ.sup' ⟨⟨0, by norm_num⟩, mem_univ _⟩ (f r) : ℝ) : EReal) := by
  -- The row's supremum of real values.
  rw [rowmax_read]
  simp only [hT]
  exact sup_coe (f r) _

/-- The sum of row r of a 1024 x 1024 block. -/
theorem rowsum_read (A : FVec Ideal S1024x1024 .f32) (r : Fin 1024) :
    multiReduction .add [1] S1024 A 0x00000000#32 reduces_S1024x1024_S1024 (.inl rfl) rfl (ix1 r)
      = ∑ s : Fin 1024, A (ix2 r s) :=
  -- The sum over the second axis of a block, read at row r.
  Cert.LibVecRows.multiReduction_rows_apply A _ reduces_S1024x1024_S1024 (.inl rfl) rfl r

/-- Weights times a value tile into a zero accumulator, at (r, j): the weighted sum of the value rows. -/
theorem pv_read (p : FVec Ideal S1024x1024 .bf16) (v : FVec Ideal S1024x128 .bf16) (r : Fin 1024) (j : Fin 128) :
    matmul dot_S1024x1024_S1024x128_S1024x128_1_0_0_1_n_n none p v (constant S1024x128 .f32 0x00000000#32) (ix2 r j)
      = ∑ s : Fin 1024, p (ix2 r s) * v (ix2 s j) :=
  pv_prod_read p v r j

/-- The first 64 columns of a 1024 x 128 result, written as a 1 x 1024 x 64 output block, at (0, r, d). -/
theorem out_read (A : FVec Ideal S1024x128 .f32) (r : Fin 1024) (d : Fin 64) :
    shapeCast S1x1024x64 (extractStridedSlice S1024x64 ![0, 0] A slices_S1024x128_o0_0_S1024x64)
        shapeCasts_S1024x64_S1x1024x64 (ix3 (0 : Fin 1) r d)
      = A (ix2 r (wide d)) := by
  -- The block index (0, r, d) and the slice index (r, d) have the same row-major position r * 64 + d, and the
  -- slice starts at column 0.
  refine (shapeCast_apply _ shapeCasts_S1024x64_S1x1024x64 (ix3 (0 : Fin 1) r d) (ix2 r d) ?_).trans ?_
  · rw [Shape.rowMajor_val_two, Shape.rowMajor_val_three]
    show r.val * 64 + d.val = ((0 : Fin 1).val * 1024 + r.val) * 64 + d.val
    simp
  · refine extractStridedSlice_apply ![0, 0] A slices_S1024x128_o0_0_S1024x64 (ix2 r d) (ix2 r (wide d)) fun a => ?_
    match a with
    | ⟨0, _⟩ => show r.val = 0 + r.val; omega
    | ⟨1, _⟩ => show d.val = 0 + d.val; omega

end Cert.KernelIdeal.Ker

end
-- ==== Proof.KerProj.lean ====
/-
  The six tiles the body reads back from its scratch buffers, at real inputs: each is the projection of one half
  of the point's sequence onto the query, key or value part of the 384 projected columns.
-/
import proofs.«401925_j24807731101992_3_alg».proof.Proof.Gen.KernelIdeal.Skeleton
import proofs.«401925_j24807731101992_3_alg».proof.Proof.KerTerm
import proofs.«401925_j24807731101992_3_alg».proof.Proof.AttnSpec
import proofs.«401925_j24807731101992_3_alg».proof.Proof.Consts
import proofs.«401925_j24807731101992_3_alg».proof.Proof.LibVecRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«401925_j24807731101992_3_alg».proof.Proof.TileOps

noncomputable section

namespace Cert.KernelIdeal.Ker

open Idealize.ShloMosaic Idealize.ShloMosaic.ValueIdx Idealize.SL.Sem Cert.KernelIdeal Cert.KernelIdeal.Gen Cert.Attn Finset

/-! The operand coordinates of the product of the sequence block with the weights, one axis at a time: the left operand reads the result's row
    and the contraction coordinate, the right operand the contraction coordinate and the result's column. -/
theorem xw_lhs0 (i : S2048x384.Idx) (q : dot_S2048x1024_S1024x384_S2048x384_1_0_0_1_n_n.contr.Idx) : (dot_S2048x1024_S1024x384_S2048x384_1_0_0_1_n_n.lhsIdx i q 0).val = (i 0).val := by
  unfold DotDims.lhsIdx
  rw [dif_neg (show ¬(0 : Fin S2048x1024.rank) ∈ dot_S2048x1024_S1024x384_S2048x384_1_0_0_1_n_n.lhsBatch by decide),
    dif_pos (show (0 : Fin S2048x1024.rank) ∈ dot_S2048x1024_S1024x384_S2048x384_1_0_0_1_n_n.lhsNonContracting by decide)]
  rfl
theorem xw_lhs1 (i : S2048x384.Idx) (q : dot_S2048x1024_S1024x384_S2048x384_1_0_0_1_n_n.contr.Idx) : (dot_S2048x1024_S1024x384_S2048x384_1_0_0_1_n_n.lhsIdx i q 1).val = (q ⟨0, by decide⟩).val :=
  dot_S2048x1024_S1024x384_S2048x384_1_0_0_1_n_n.lhsIdx_val_of_single rfl i q
theorem xw_rhs0 (i : S2048x384.Idx) (q : dot_S2048x1024_S1024x384_S2048x384_1_0_0_1_n_n.contr.Idx) : (dot_S2048x1024_S1024x384_S2048x384_1_0_0_1_n_n.rhsIdx i q 0).val = (q ⟨0, by decide⟩).val :=
  dot_S2048x1024_S1024x384_S2048x384_1_0_0_1_n_n.rhsIdx_val_of_single rfl i q
theorem xw_rhs1 (i : S2048x384.Idx) (q : dot_S2048x1024_S1024x384_S2048x384_1_0_0_1_n_n.contr.Idx) : (dot_S2048x1024_S1024x384_S2048x384_1_0_0_1_n_n.rhsIdx i q 1).val = (i 1).val := by
  unfold DotDims.rhsIdx
  rw [dif_neg (show ¬(1 : Fin S1024x384.rank) ∈ dot_S2048x1024_S1024x384_S2048x384_1_0_0_1_n_n.rhsBatch by decide),
    dif_pos (show (1 : Fin S1024x384.rank) ∈ dot_S2048x1024_S1024x384_S2048x384_1_0_0_1_n_n.rhsNonContracting by decide)]
  rfl

/-- A 2048 x 1024 block times a 1024 x 384 block into a zero accumulator, at (t, j). -/
theorem xw_read {φ₁ φ₂ : FTy} (a : FVec Ideal S2048x1024 φ₁) (b : FVec Ideal S1024x384 φ₂) (r : Fin 2048) (j : Fin 384) :
    matmul dot_S2048x1024_S1024x384_S2048x384_1_0_0_1_n_n none a b (constant S2048x384 .f32 0x00000000#32) (ix2 r j) = ∑ s : Fin 1024, a (ix2 r s) * b (ix2 s j) := by
  -- Into the zero accumulator the product is the sum over the contraction index; that index is its one coordinate,
  -- and at the two operands the coordinates are (r, s) and (s, j).
  refine (Ideal.matmul_constant_zero_apply dot_S2048x1024_S1024x384_S2048x384_1_0_0_1_n_n none a b (ix2 r j)).trans ?_
  rw [← Equiv.sum_comp (contrEquiv1 dot_S2048x1024_S1024x384_S2048x384_1_0_0_1_n_n 1024 rfl rfl).symm]
  refine Finset.sum_congr rfl fun s _ => ?_
  have hs := contrEquiv1_symm_val dot_S2048x1024_S1024x384_S2048x384_1_0_0_1_n_n 1024 rfl rfl s
  have el : dot_S2048x1024_S1024x384_S2048x384_1_0_0_1_n_n.lhsIdx (ix2 r j) ((contrEquiv1 dot_S2048x1024_S1024x384_S2048x384_1_0_0_1_n_n 1024 rfl rfl).symm s) = ix2 r s :=
    funext fun c => Fin.ext (by
      match c with
      | ⟨0, _⟩ => exact xw_lhs0 _ _
      | ⟨1, _⟩ => exact (xw_lhs1 _ _).trans hs)
  have er : dot_S2048x1024_S1024x384_S2048x384_1_0_0_1_n_n.rhsIdx (ix2 r j) ((contrEquiv1 dot_S2048x1024_S1024x384_S2048x384_1_0_0_1_n_n 1024 rfl rfl).symm s) = ix2 s j :=
    funext fun c => Fin.ext (by
      match c with
      | ⟨0, _⟩ => exact (xw_rhs0 _ _).trans hs
      | ⟨1, _⟩ => exact xw_rhs1 _ _)
  rw [el, er]

/-- The 1 x 2048 x 1024 sequence block viewed as 2048 x 1024, at (t, e): the block at (0, t, e). -/
theorem seq_read {α : Type} (x : S1x2048x1024.Idx → α) (t : Fin 2048) (e : Fin 1024) :
    shapeCast S2048x1024 x shapeCasts_S1x2048x1024_S2048x1024 (ix2 t e) = x (ix3 (0 : Fin 1) t e) := by
  -- Both indices have the row-major position t * 1024 + e.
  refine shapeCast_apply x shapeCasts_S1x2048x1024_S2048x1024 (ix2 t e) (ix3 (0 : Fin 1) t e) ?_
  rw [Shape.rowMajor_val_two, Shape.rowMajor_val_three]
  show ((0 : Fin 1).val * 2048 + t.val) * 1024 + e.val = t.val * 1024 + e.val
  simp

/-- The 128 columns from column c on of a 2048 x 384 block, stored in 16-bit format, at (t, d): the block at
    (t, c + d). -/
theorem part_read (P : FVec Ideal S2048x384 .f32) (c : ℕ) (hs : S2048x384.Slices ![0, c] S2048x128)
    (t : Fin 2048) (d : Fin 128) (j : Fin 384) (hj : j.val = c + d.val) :
    shapeCast S2048x128 (truncf .bf16 (extractStridedSlice S2048x128 ![0, c] P hs) bitsLt_bf16_f32)
        shapeCasts_S2048x128_S2048x128 (ix2 t d)
      = P (ix2 t j) := by
  -- The cast to the same shape and the change of format are the identity; the slice shifts the column by c.
  rw [shapeCast_self, truncf_apply]
  refine extractStridedSlice_apply ![0, c] P hs (ix2 t d) (ix2 t j) fun a => ?_
  match a with
  | ⟨0, _⟩ => show t.val = 0 + t.val; omega
  | ⟨1, _⟩ => show j.val = c + d.val; exact hj

/-- Rows 0 to 1023 of a 2048-row buffer, at (r, d): the buffer at row r. -/
theorem ld_top {Val : EltTy → Type} {e : EltTy} (Y : S2048x128.Idx → Val e) (r : Fin 1024) (d : Fin 128) :
    View.ld Y rTop (ix2 r d) = Y (ix2 (lo r) d) := by
  -- The rectangle starts at (0, 0) with unit strides.
  show Y (rTop.idx (ix2 r d)) = Y (ix2 (lo r) d)
  refine congrArg Y (funext fun a => Fin.ext ?_)
  match a with
  | ⟨0, _⟩ => show 0 + 1 * r.val = r.val; omega
  | ⟨1, _⟩ => show 0 + 1 * d.val = d.val; omega

/-- Rows 1024 to 2047 of a 2048-row buffer, at (r, d): the buffer at row 1024 + r. -/
theorem ld_bot {Val : EltTy → Type} {e : EltTy} (Y : S2048x128.Idx → Val e) (r : Fin 1024) (d : Fin 128) :
    View.ld Y rBot (ix2 r d) = Y (ix2 (hi r) d) := by
  -- The rectangle starts at (1024, 0) with unit strides.
  show Y (rBot.idx (ix2 r d)) = Y (ix2 (hi r) d)
  refine congrArg Y (funext fun a => Fin.ext ?_)
  match a with
  | ⟨0, _⟩ => show 1024 + 1 * r.val = 1024 + r.val; omega
  | ⟨1, _⟩ => show 0 + 1 * d.val = d.val; omega

section
variable (x0 : Vec Ideal S1x2048x1024 .f32) (x3 : Vec Ideal S1024x384 .f32)
  (X : Fin 2048 → Fin 1024 → ℝ) (W : Fin 1024 → Fin 384 → ℝ)
  (hx : ∀ t e, x0 (ix3 (0 : Fin 1) t e) = ((X t e : ℝ) : EReal))
  (hw : ∀ e j, x3 (ix2 e j) = ((W e j : ℝ) : EReal))
include hx hw

/-- The one product of the sequence with the 384 weight columns, at (t, j). -/
theorem proj_read (t : Fin 2048) (j : Fin 384) :
    k0_pay2 (F := Ideal) x0 x3 (ix2 t j) = ((proj X W t j : ℝ) : EReal) := by
  -- The product at (t, j) is the sum over the 1024 columns of the sequence at (t, e) times the weights at (e, j);
  -- the changes of format are the identity, and at real entries the sum is the real sum.
  refine (xw_read (truncf .bf16 (shapeCast S2048x1024 x0 shapeCasts_S1x2048x1024_S2048x1024) bitsLt_bf16_f32)
    (truncf .bf16 (shapeCast S1024x384 x3 shapeCasts_S1024x384_S1024x384) bitsLt_bf16_f32) t j).trans ?_
  show _ = ((∑ e : Fin 1024, X t e * W e j : ℝ) : EReal)
  rw [← sum_coe]
  refine Finset.sum_congr rfl fun e _ => ?_
  rw [truncf_apply, truncf_apply, seq_read, shapeCast_self, hx, hw, EReal.coe_mul]

theorem qTop_read (r : Fin 1024) (d : Fin 128) :
    View.ld (qAll (F := Ideal) x0 x3) rTop (ix2 r d) = ((tile X W lo qcol r d : ℝ) : EReal) := by
  -- The rows read are rows of the stored block, which is the 128 columns from column 0 on of the one product.
  rw [ld_top]
  refine (part_read (k0_pay2 (F := Ideal) x0 x3) 0 slices_S2048x384_o0_0_S2048x128 (lo r) d (qcol d) (Nat.zero_add d.val).symm).trans ?_
  exact proj_read x0 x3 X W hx hw (lo r) (qcol d)
theorem qBot_read (r : Fin 1024) (d : Fin 128) :
    View.ld (qAll (F := Ideal) x0 x3) rBot (ix2 r d) = ((tile X W hi qcol r d : ℝ) : EReal) := by
  -- The rows read are rows of the stored block, which is the 128 columns from column 0 on of the one product.
  rw [ld_bot]
  refine (part_read (k0_pay2 (F := Ideal) x0 x3) 0 slices_S2048x384_o0_0_S2048x128 (hi r) d (qcol d) (Nat.zero_add d.val).symm).trans ?_
  exact proj_read x0 x3 X W hx hw (hi r) (qcol d)
theorem kTop_read (r : Fin 1024) (d : Fin 128) :
    View.ld (kAll (F := Ideal) x0 x3) rTop (ix2 r d) = ((tile X W lo kcol r d : ℝ) : EReal) := by
  -- The rows read are rows of the stored block, which is the 128 columns from column 128 on of the one product.
  rw [ld_top]
  refine (part_read (k0_pay2 (F := Ideal) x0 x3) 128 slices_S2048x384_o0_128_S2048x128 (lo r) d (kcol d) rfl).trans ?_
  exact proj_read x0 x3 X W hx hw (lo r) (kcol d)
theorem kBot_read (r : Fin 1024) (d : Fin 128) :
    View.ld (kAll (F := Ideal) x0 x3) rBot (ix2 r d) = ((tile X W hi kcol r d : ℝ) : EReal) := by
  -- The rows read are rows of the stored block, which is the 128 columns from column 128 on of the one product.
  rw [ld_bot]
  refine (part_read (k0_pay2 (F := Ideal) x0 x3) 128 slices_S2048x384_o0_128_S2048x128 (hi r) d (kcol d) rfl).trans ?_
  exact proj_read x0 x3 X W hx hw (hi r) (kcol d)
theorem vTop_read (r : Fin 1024) (d : Fin 128) :
    View.ld (vAll (F := Ideal) x0 x3) rTop (ix2 r d) = ((tile X W lo vcol r d : ℝ) : EReal) := by
  -- The rows read are rows of the stored block, which is the 128 columns from column 256 on of the one product.
  rw [ld_top]
  refine (part_read (k0_pay2 (F := Ideal) x0 x3) 256 slices_S2048x384_o0_256_S2048x128 (lo r) d (vcol d) rfl).trans ?_
  exact proj_read x0 x3 X W hx hw (lo r) (vcol d)
theorem vBot_read (r : Fin 1024) (d : Fin 128) :
    View.ld (vAll (F := Ideal) x0 x3) rBot (ix2 r d) = ((tile X W hi vcol r d : ℝ) : EReal) := by
  -- The rows read are rows of the stored block, which is the 128 columns from column 256 on of the one product.
  rw [ld_bot]
  refine (part_read (k0_pay2 (F := Ideal) x0 x3) 256 slices_S2048x384_o0_256_S2048x128 (hi r) d (vcol d) rfl).trans ?_
  exact proj_read x0 x3 X W hx hw (hi r) (vcol d)

end

end Cert.KernelIdeal.Ker

end
-- ==== Proof.KerTop.lean ====
/-
  The first attention step at real tiles: what the body stores into the first 1024 output rows is the tiled
  arrangement's first-tile result.
-/
import proofs.«401925_j24807731101992_3_alg».proof.Proof.Gen.KernelIdeal.Skeleton
import proofs.«401925_j24807731101992_3_alg».proof.Proof.KerTerm
import proofs.«401925_j24807731101992_3_alg».proof.Proof.AttnSpec
import proofs.«401925_j24807731101992_3_alg».proof.Proof.Consts
import proofs.«401925_j24807731101992_3_alg».proof.Proof.LibVecRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«401925_j24807731101992_3_alg».proof.Proof.TileOps

noncomputable section

namespace Cert.KernelIdeal.Ker

open Idealize.ShloMosaic Idealize.ShloMosaic.ValueIdx Idealize.SL.Sem Cert.KernelIdeal Cert.KernelIdeal.Gen Cert.Attn Finset

/-- The running maximum a step starts from is the bottom element at every entry. -/
theorem pay6_apply (j : S1024x1.Idx) : k0_pay6 (F := Ideal) j = (⊥ : EReal) := Cert.Consts.ofBits_neg_inf

/-- The running weight sum a step starts from is 0 at every entry. -/
theorem pay7_apply (j : S1024x1.Idx) : k0_pay7 (F := Ideal) j = (0 : EReal) := Cert.Consts.ofBits_zero

/-- The running value sum a step starts from is 0 at every entry. -/
theorem pay8_apply (j : S1024x128.Idx) : k0_pay8 (F := Ideal) j = (0 : EReal) := Cert.Consts.ofBits_zero

/-- The new running maximum of row r, as a column entry: the larger of bottom and the row's masked maximum, which
    is the largest real score among s ≤ r. -/
theorem stepMax_read (T : FVec Ideal S1024x1024 .f32) (f : Fin 1024 → Fin 1024 → ℝ)
    (hT : ∀ r s, T (ix2 r s) = if s ≤ r then ((f r s : ℝ) : EReal) else (⊥ : EReal)) (r : Fin 1024) (z : Fin 1) :
    maximumf (k0_pay6 (F := Ideal))
        (shapeCast S1024x1 (multiReduction .maximumf [1] S1024 T 0xFF800000#32 reduces_S1024x1024_S1024 (.inl rfl) rfl)
          shapeCasts_S1024_S1024x1) (ix2 r z)
      = (((univ.filter fun s : Fin 1024 => s ≤ r).sup' ⟨r, by simp⟩ (f r) : ℝ) : EReal) := by
  -- max ⊥ x = x; the column entry of row r is the vector's entry r.
  rw [maximumf_apply, pay6_apply, max_bot_left, Cert.LibVecRows.shapeCast_col_apply]
  exact rowmax_masked T f hT r

/-- The factor that rescales what earlier steps accumulated: exp (⊥ - m) = 0 when the new maximum m is real. -/
theorem stepScale_read (m : FVec Ideal S1024x1 .f32) (M : Fin 1024 → ℝ)
    (hm : ∀ r z, m (ix2 r z) = ((M r : ℝ) : EReal)) (r : Fin 1024) (z : Fin 1) :
    exp (subf (k0_pay6 (F := Ideal)) m) (ix2 r z) = (0 : EReal) := by
  show Ideal.exp (k0_pay6 (F := Ideal) (ix2 r z) - m (ix2 r z)) = 0
  rw [pay6_apply, hm, sub_eq_add_neg, EReal.bot_add, Ideal.exp_bot]

/-- The weights of row r: exp (score - maximum) where s ≤ r, and exp (⊥ - maximum) = 0 elsewhere. -/
theorem stepW_read (T : FVec Ideal S1024x1024 .f32) (f : Fin 1024 → Fin 1024 → ℝ)
    (hT : ∀ r s, T (ix2 r s) = if s ≤ r then ((f r s : ℝ) : EReal) else (⊥ : EReal))
    (m : FVec Ideal S1024x1 .f32) (M : Fin 1024 → ℝ) (hm : ∀ r z, m (ix2 r z) = ((M r : ℝ) : EReal)) (r s : Fin 1024) :
    exp (subf T (broadcastTo S1024x1024 m broadcasts_S1024x1_S1024x1024)) (ix2 r s)
      = (((if s ≤ r then Real.exp (f r s - M r) else 0 : ℝ)) : EReal) := by
  show Ideal.exp (T (ix2 r s) - broadcastTo S1024x1024 m broadcasts_S1024x1_S1024x1024 (ix2 r s)) = _
  rw [Cert.LibVecRows.broadcastTo_col_apply, hT, hm]
  by_cases h : s ≤ r
  · rw [if_pos h, if_pos h, ← EReal.coe_sub, Ideal.exp_coe]
  · rw [if_neg h, if_neg h, sub_eq_add_neg, EReal.bot_add, Ideal.exp_bot, EReal.coe_zero]

/-- The new running weight sum of row r, as a column entry: the old sum (0) rescaled, plus the row's weights. -/
theorem stepSum_read (a : FVec Ideal S1024x1 .f32) (ha : ∀ r z, a (ix2 r z) = (0 : EReal))
    (p : FVec Ideal S1024x1024 .f32) (w : Fin 1024 → Fin 1024 → ℝ) (hp : ∀ r s, p (ix2 r s) = ((w r s : ℝ) : EReal))
    (r : Fin 1024) (z : Fin 1) :
    addf (mulf a (k0_pay7 (F := Ideal)))
        (shapeCast S1024x1 (multiReduction .add [1] S1024 p 0x00000000#32 reduces_S1024x1024_S1024 (.inl rfl) rfl)
          shapeCasts_S1024_S1024x1) (ix2 r z)
      = ((∑ s : Fin 1024, w r s : ℝ) : EReal) := by
  rw [addf_apply, mulf_apply, ha, pay7_apply, zero_mul, zero_add, Cert.LibVecRows.shapeCast_col_apply, rowsum_read,
    ← sum_coe]
  exact Finset.sum_congr rfl fun s _ => hp r s

/-- The new running value sum at (r, j): the old sum (0) rescaled, plus the weights times the value tile. -/
theorem stepAcc_read (a : FVec Ideal S1024x1 .f32) (ha : ∀ r z, a (ix2 r z) = (0 : EReal))
    (p : FVec Ideal S1024x1024 .f32) (w : Fin 1024 → Fin 1024 → ℝ) (hp : ∀ r s, p (ix2 r s) = ((w r s : ℝ) : EReal))
    (v : FVec Ideal S1024x128 .bf16) (V : Fin 1024 → Fin 128 → ℝ) (hv : ∀ s j, v (ix2 s j) = ((V s j : ℝ) : EReal))
    (r : Fin 1024) (j : Fin 128) :
    addf (mulf (broadcastTo S1024x128 a broadcasts_S1024x1_S1024x128) (k0_pay8 (F := Ideal)))
        (matmul dot_S1024x1024_S1024x128_S1024x128_1_0_0_1_n_n none (truncf .bf16 p bitsLt_bf16_f32) v
          (constant S1024x128 .f32 0x00000000#32)) (ix2 r j)
      = ((∑ s : Fin 1024, w r s * V s j : ℝ) : EReal) := by
  rw [addf_apply, mulf_apply, pay8_apply, mul_zero, zero_add, pv_read, ← sum_coe]
  refine Finset.sum_congr rfl fun s _ => ?_
  rw [truncf_apply, hp, hv, EReal.coe_mul]

/-- The value sum over the weight sum at (r, j), when both are real and the weight sum is not 0. -/
theorem stepOut_read (acc : FVec Ideal S1024x128 .f32) (A : Fin 1024 → Fin 128 → ℝ)
    (hacc : ∀ r j, acc (ix2 r j) = ((A r j : ℝ) : EReal))
    (l : FVec Ideal S1024x1 .f32) (L : Fin 1024 → ℝ) (hl : ∀ r z, l (ix2 r z) = ((L r : ℝ) : EReal))
    (hL : ∀ r, L r ≠ 0) (r : Fin 1024) (j : Fin 128) :
    divf acc (broadcastTo S1024x128 l broadcasts_S1024x1_S1024x128) (ix2 r j) = ((A r j / L r : ℝ) : EReal) := by
  rw [divf_apply, Cert.LibVecRows.broadcastTo_col_apply, hacc, hl, Ideal.div_coe (hL r), ← EReal.coe_mul, one_div,
    div_eq_mul_inv]

/-- The weights of a row of the first tile sum to a positive number: the diagonal term is an exponential and the
    others are not negative. -/
theorem topW_sum_pos (c : ℝ) (Q K : Fin 1024 → Fin 128 → ℝ) (r : Fin 1024) : 0 < ∑ s : Fin 1024, topW c Q K r s := by
  have h0 : ∀ s ∈ (univ : Finset (Fin 1024)), 0 ≤ topW c Q K r s := fun s _ => by
    unfold topW; split
    · exact (Real.exp_pos _).le
    · exact le_rfl
  refine Finset.sum_pos' h0 ⟨r, mem_univ _, ?_⟩
  unfold topW
  rw [if_pos le_rfl]
  exact Real.exp_pos _

/-- One masked step on real query, key and value tiles, read at output entry (0, r, d). -/
theorem top_read (q k v : Vec Ideal S1024x128 .bf16) (Q K V : Fin 1024 → Fin 128 → ℝ)
    (hq : ∀ r d, q (ix2 r d) = ((Q r d : ℝ) : EReal)) (hk : ∀ s d, k (ix2 s d) = ((K s d : ℝ) : EReal))
    (hv : ∀ s j, v (ix2 s j) = ((V s j : ℝ) : EReal)) (r : Fin 1024) (d : Fin 64) :
    k0_pay10 (F := Ideal) (k0_pay6 (F := Ideal)) (k0_pay7 (F := Ideal)) (k0_pay8 (F := Ideal)) v (k0_pay9 q k) rowIota
        (ix3 (0 : Fin 1) r d)
      = ((topOut (1 / 8) Q K V r (wide d) : ℝ) : EReal) := by
  -- The scores under the mask: the scaled score where s ≤ r, bottom elsewhere.
  have hT : ∀ r s : Fin 1024,
      select (cmpi .sge (broadcastTo S1024x1024 rowIota broadcasts_S1024x1_S1024x1024)
          (broadcastTo S1024x1024 colIota broadcasts_S1x1024_S1024x1024)) (k0_pay9 (F := Ideal) q k)
          (broadcast S1024x1024 (Named.named (F := Ideal) κ "neg_big" (φ := .f32) 0xF149F2CA#32)) (ix2 r s)
        = if s ≤ r then ((tileScore (1 / 8) Q K r s : ℝ) : EReal) else (⊥ : EReal) := fun r s => by
    rw [masked_read, score_read q k Q K hq hk]
  -- The row maxima, the rescaling factor, the weights, their sums, the weighted value sums, the quotient.
  have hm := stepMax_read _ (tileScore (1 / 8) Q K) hT
  have ha := stepScale_read _ (topMax (1 / 8) Q K) hm
  have hp := stepW_read _ (tileScore (1 / 8) Q K) hT _ (topMax (1 / 8) Q K) hm
  have hl := stepSum_read _ ha _ (topW (1 / 8) Q K) hp
  have hacc := stepAcc_read _ ha _ (topW (1 / 8) Q K) hp v V hv
  have hout := stepOut_read _ _ hacc _ _ hl (fun r => (topW_sum_pos (1 / 8) Q K r).ne')
  unfold k0_pay10
  exact (out_read _ r d).trans (hout r (wide d))

end Cert.KernelIdeal.Ker

end
-- ==== Proof.KerBot.lean ====
/-
  The two attention steps of the second tile at real tiles: what the body stores into the last 1024 output rows
  is the tiled arrangement's second-tile result.
-/
import proofs.«401925_j24807731101992_3_alg».proof.Proof.Gen.KernelIdeal.Skeleton
import proofs.«401925_j24807731101992_3_alg».proof.Proof.KerTerm
import proofs.«401925_j24807731101992_3_alg».proof.Proof.AttnSpec
import proofs.«401925_j24807731101992_3_alg».proof.Proof.Consts
import proofs.«401925_j24807731101992_3_alg».proof.Proof.LibVecRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«401925_j24807731101992_3_alg».proof.Proof.TileOps

noncomputable section

namespace Cert.KernelIdeal.Ker

open Idealize.ShloMosaic Idealize.ShloMosaic.ValueIdx Idealize.SL.Sem Cert.KernelIdeal Cert.KernelIdeal.Gen Cert.Attn Finset

namespace BotSteps

/-! ## One step of the running maximum, weight sum and weighted value sum -/

/-- The running row maximum after a block whose row maxima are `t`: the larger of the two, as a column. -/
def newMax (m : FVec Ideal S1024x1 .f32) (t : FVec Ideal S1024 .f32) : FVec Ideal S1024x1 .f32 :=
  maximumf m (shapeCast S1024x1 t shapeCasts_S1024_S1024x1)

/-- The factor exp (m - m') that rescales what was accumulated under the old maximum `m`. -/
def rescale (m m' : FVec Ideal S1024x1 .f32) : FVec Ideal S1024x1 .f32 := exp (subf m m')

/-- The weights exp (T - m') of a block of scores `T` under the row maxima `m'`. -/
def weights (T : FVec Ideal S1024x1024 .f32) (m' : FVec Ideal S1024x1 .f32) : FVec Ideal S1024x1024 .f32 :=
  exp (subf T (broadcastTo S1024x1024 m' broadcasts_S1024x1_S1024x1024))

/-- The running weight sum: the old sum rescaled plus the row sums of the new weights. -/
def newSum (a l : FVec Ideal S1024x1 .f32) (P : FVec Ideal S1024x1024 .f32) : FVec Ideal S1024x1 .f32 :=
  addf (mulf a l) (shapeCast S1024x1
    (multiReduction .add [1] S1024 P 0x00000000#32 reduces_S1024x1024_S1024 (.inl rfl) rfl) shapeCasts_S1024_S1024x1)

/-- The running weighted value sum: the old one rescaled plus the new weights times the value tile. -/
def newAcc (a : FVec Ideal S1024x1 .f32) (acc : FVec Ideal S1024x128 .f32) (P : FVec Ideal S1024x1024 .f32)
    (v : FVec Ideal S1024x128 .bf16) : FVec Ideal S1024x128 .f32 :=
  addf (mulf (broadcastTo S1024x128 a broadcasts_S1024x1_S1024x128) acc)
    (matmul dot_S1024x1024_S1024x128_S1024x128_1_0_0_1_n_n none (truncf .bf16 P bitsLt_bf16_f32) v
      (constant S1024x128 .f32 0x00000000#32))

/-- Scores under the causal mask of a diagonal tile. -/
def maskedScores (T : FVec Ideal S1024x1024 .f32) : FVec Ideal S1024x1024 .f32 :=
  select (cmpi .sge (broadcastTo S1024x1024 rowIota broadcasts_S1024x1_S1024x1024)
      (broadcastTo S1024x1024 colIota broadcasts_S1x1024_S1024x1024)) T
    (broadcast S1024x1024 (Named.named (F := Ideal) κ "neg_big" (φ := .f32) 0xF149F2CA#32))

/-- The row maxima of a block of scores. -/
def rowMax (T : FVec Ideal S1024x1024 .f32) : FVec Ideal S1024 .f32 :=
  multiReduction .maximumf [1] S1024 T 0xFF800000#32 reduces_S1024x1024_S1024 (.inl rfl) rfl

/-! ## The steps read at an entry -/

theorem newMax_read (m : FVec Ideal S1024x1 .f32) (t : FVec Ideal S1024 .f32) (r : Fin 1024) :
    newMax m t (ix2 r (0 : Fin 1)) = max (m (ix2 r (0 : Fin 1))) (t (ix1 r)) := by
  -- The maximum is taken entry by entry; the column view of t reads t's own entry.
  refine (maximumf_apply m _ _).trans ?_
  exact congrArg (max _) (Cert.LibVecRows.shapeCast_col_apply t shapeCasts_S1024_S1024x1 r 0)

theorem rescale_read (m m' : FVec Ideal S1024x1 .f32) (r : Fin 1024) :
    rescale m m' (ix2 r (0 : Fin 1)) = Ideal.exp (m (ix2 r (0 : Fin 1)) - m' (ix2 r (0 : Fin 1))) := rfl

theorem weights_read (T : FVec Ideal S1024x1024 .f32) (m' : FVec Ideal S1024x1 .f32) (r s : Fin 1024) :
    weights T m' (ix2 r s) = Ideal.exp (T (ix2 r s) - m' (ix2 r (0 : Fin 1))) := by
  -- The column of maxima broadcast along the row reads the row's maximum.
  show Ideal.exp (T (ix2 r s) - broadcastTo S1024x1024 m' broadcasts_S1024x1_S1024x1024 (ix2 r s)) = _
  exact congrArg (fun x => Ideal.exp (T (ix2 r s) - x))
    (Cert.LibVecRows.broadcastTo_col_apply m' broadcasts_S1024x1_S1024x1024 r s)

theorem newSum_read (a l : FVec Ideal S1024x1 .f32) (P : FVec Ideal S1024x1024 .f32) (r : Fin 1024) :
    newSum a l P (ix2 r (0 : Fin 1))
      = a (ix2 r (0 : Fin 1)) * l (ix2 r (0 : Fin 1)) + ∑ s : Fin 1024, P (ix2 r s) := by
  -- The column view of the row sums reads the sum of row r.
  show a (ix2 r (0 : Fin 1)) * l (ix2 r (0 : Fin 1))
      + shapeCast S1024x1 (multiReduction .add [1] S1024 P 0x00000000#32 reduces_S1024x1024_S1024 (.inl rfl) rfl)
          shapeCasts_S1024_S1024x1 (ix2 r (0 : Fin 1)) = _
  refine congrArg (a (ix2 r (0 : Fin 1)) * l (ix2 r (0 : Fin 1)) + ·) ?_
  exact (Cert.LibVecRows.shapeCast_col_apply _ shapeCasts_S1024_S1024x1 r 0).trans (rowsum_read P r)

theorem newAcc_read (a : FVec Ideal S1024x1 .f32) (acc : FVec Ideal S1024x128 .f32) (P : FVec Ideal S1024x1024 .f32)
    (v : FVec Ideal S1024x128 .bf16) (r : Fin 1024) (j : Fin 128) :
    newAcc a acc P v (ix2 r j)
      = a (ix2 r (0 : Fin 1)) * acc (ix2 r j) + ∑ s : Fin 1024, P (ix2 r s) * v (ix2 s j) := by
  -- The rescaling column broadcast along the row reads the row's factor; the product with the value tile is
  -- the weighted sum of the value rows.
  show broadcastTo S1024x128 a broadcasts_S1024x1_S1024x128 (ix2 r j) * acc (ix2 r j)
      + matmul dot_S1024x1024_S1024x128_S1024x128_1_0_0_1_n_n none (truncf .bf16 P bitsLt_bf16_f32) v
          (constant S1024x128 .f32 0x00000000#32) (ix2 r j) = _
  rw [Cert.LibVecRows.broadcastTo_col_apply a broadcasts_S1024x1_S1024x128 r j, pv_read]
  rfl

/-! ## The steps at real values -/

/-- The exponential of a difference of two reals, seen as extended reals, is the real exponential. -/
theorem exp_coe_sub (x y : ℝ) : Ideal.exp ((x : EReal) - (y : EReal)) = ((Real.exp (x - y) : ℝ) : EReal) := rfl

/-- The larger of two reals, seen as extended reals. -/
theorem max_coe (x y : ℝ) : max ((x : EReal)) ((y : EReal)) = ((max x y : ℝ) : EReal) :=
  (EReal.coe_strictMono.monotone.map_max).symm

theorem newSum_coe (a l : FVec Ideal S1024x1 .f32) (P : FVec Ideal S1024x1024 .f32) (r : Fin 1024) (A L : ℝ)
    (W : Fin 1024 → ℝ) (ha : a (ix2 r (0 : Fin 1)) = ((A : ℝ) : EReal)) (hl : l (ix2 r (0 : Fin 1)) = ((L : ℝ) : EReal))
    (hP : ∀ s, P (ix2 r s) = ((W s : ℝ) : EReal)) :
    newSum a l P (ix2 r (0 : Fin 1)) = ((A * L + ∑ s : Fin 1024, W s : ℝ) : EReal) := by
  -- Products and sums of reals seen as extended reals are the real ones.
  rw [newSum_read, ha, hl, Finset.sum_congr rfl (fun s _ => hP s), sum_coe, ← EReal.coe_mul, ← EReal.coe_add]

theorem newAcc_coe (a : FVec Ideal S1024x1 .f32) (acc : FVec Ideal S1024x128 .f32) (P : FVec Ideal S1024x1024 .f32)
    (v : FVec Ideal S1024x128 .bf16) (r : Fin 1024) (j : Fin 128) (A C : ℝ) (W V : Fin 1024 → ℝ)
    (ha : a (ix2 r (0 : Fin 1)) = ((A : ℝ) : EReal)) (hacc : acc (ix2 r j) = ((C : ℝ) : EReal))
    (hP : ∀ s, P (ix2 r s) = ((W s : ℝ) : EReal)) (hv : ∀ s, v (ix2 s j) = ((V s : ℝ) : EReal)) :
    newAcc a acc P v (ix2 r j) = ((A * C + ∑ s : Fin 1024, W s * V s : ℝ) : EReal) := by
  have hterm : ∀ s : Fin 1024, P (ix2 r s) * v (ix2 s j) = ((W s * V s : ℝ) : EReal) := fun s => by
    rw [hP s, hv s, ← EReal.coe_mul]
  rw [newAcc_read, ha, hacc, Finset.sum_congr rfl (fun s _ => hterm s), sum_coe, ← EReal.coe_mul, ← EReal.coe_add]

/-- The weighted value sum over the weight sum, at real values with a nonzero weight sum. -/
theorem quot_coe (A : FVec Ideal S1024x128 .f32) (l : FVec Ideal S1024x1 .f32) (r : Fin 1024) (j : Fin 128) (X L : ℝ)
    (hL : L ≠ 0) (hA : A (ix2 r j) = ((X : ℝ) : EReal)) (hl : l (ix2 r (0 : Fin 1)) = ((L : ℝ) : EReal)) :
    divf A (broadcastTo S1024x128 l broadcasts_S1024x1_S1024x128) (ix2 r j) = ((X / L : ℝ) : EReal) := by
  -- Division by a nonzero real is multiplication by its inverse.
  refine (divf_apply A _ _).trans ?_
  rw [Cert.LibVecRows.broadcastTo_col_apply l broadcasts_S1024x1_S1024x128 r j, hA, hl, Ideal.div_coe hL,
    ← EReal.coe_mul, mul_one_div]

/-! ## The second tile's two steps -/

/-- The running maximum after the first step: against the whole first key tile. -/
def max1 (q1 k0 : Vec Ideal S1024x128 .bf16) : FVec Ideal S1024x1 .f32 :=
  newMax (k0_pay11 (F := Ideal)) (k0_pay15 q1 k0)

/-- The first step's rescaling factor (of the empty start). -/
def scale1 (q1 k0 : Vec Ideal S1024x128 .bf16) : FVec Ideal S1024x1 .f32 :=
  rescale (k0_pay11 (F := Ideal)) (max1 q1 k0)

/-- The first step's weights. -/
def wts1 (q1 k0 : Vec Ideal S1024x128 .bf16) : FVec Ideal S1024x1024 .f32 :=
  weights (k0_pay14 q1 k0) (max1 q1 k0)

/-- The weight sum after the first step. -/
def sum1 (q1 k0 : Vec Ideal S1024x128 .bf16) : FVec Ideal S1024x1 .f32 :=
  newSum (scale1 q1 k0) (k0_pay12 (F := Ideal)) (wts1 q1 k0)

/-- The weighted value sum after the first step. -/
def acc1 (q1 k0 v0 : Vec Ideal S1024x128 .bf16) : FVec Ideal S1024x128 .f32 :=
  newAcc (scale1 q1 k0) (k0_pay13 (F := Ideal)) (wts1 q1 k0) v0

/-- The scores against the second key tile under the mask. -/
def msk (q1 k1 : Vec Ideal S1024x128 .bf16) : FVec Ideal S1024x1024 .f32 := maskedScores (k0_pay9 q1 k1)

/-- The running maximum after the second step. -/
def max2 (q1 k0 k1 : Vec Ideal S1024x128 .bf16) : FVec Ideal S1024x1 .f32 :=
  newMax (max1 q1 k0) (rowMax (msk q1 k1))

/-- The second step's rescaling factor. -/
def scale2 (q1 k0 k1 : Vec Ideal S1024x128 .bf16) : FVec Ideal S1024x1 .f32 :=
  rescale (max1 q1 k0) (max2 q1 k0 k1)

/-- The second step's weights. -/
def wts2 (q1 k0 k1 : Vec Ideal S1024x128 .bf16) : FVec Ideal S1024x1024 .f32 :=
  weights (msk q1 k1) (max2 q1 k0 k1)

/-- The weight sum after the second step. -/
def sum2 (q1 k0 k1 : Vec Ideal S1024x128 .bf16) : FVec Ideal S1024x1 .f32 :=
  newSum (scale2 q1 k0 k1) (sum1 q1 k0) (wts2 q1 k0 k1)

/-- The weighted value sum after the second step. -/
def acc2 (q1 k0 k1 v0 v1 : Vec Ideal S1024x128 .bf16) : FVec Ideal S1024x128 .f32 :=
  newAcc (scale2 q1 k0 k1) (acc1 q1 k0 v0) (wts2 q1 k0 k1) v1

/-- The second tile's payload is the weighted value sum over the weight sum after the two steps. -/
theorem pay16_bot (q1 k0 k1 v0 v1 : Vec Ideal S1024x128 .bf16) :
    k0_pay16 (F := Ideal) q1 (k0_pay11 (F := Ideal)) (k0_pay12 (F := Ideal)) (k0_pay13 (F := Ideal)) v0
        (k0_pay14 q1 k0) (k0_pay15 q1 k0) k1 v1
      = divf (acc2 q1 k0 k1 v0 v1) (broadcastTo S1024x128 (sum2 q1 k0 k1) broadcasts_S1024x1_S1024x128) := rfl

section Readings

variable (q1 k0 k1 v0 v1 : Vec Ideal S1024x128 .bf16) (Q1 K0 K1 V0 V1 : Fin 1024 → Fin 128 → ℝ)
  (hq1 : ∀ r d, q1 (ix2 r d) = ((Q1 r d : ℝ) : EReal))
  (hk0 : ∀ s d, k0 (ix2 s d) = ((K0 s d : ℝ) : EReal)) (hk1 : ∀ s d, k1 (ix2 s d) = ((K1 s d : ℝ) : EReal))
  (hv0 : ∀ s j, v0 (ix2 s j) = ((V0 s j : ℝ) : EReal)) (hv1 : ∀ s j, v1 (ix2 s j) = ((V1 s j : ℝ) : EReal))

/-- The start of the running maximum is the bottom element. -/
theorem start_max (r : Fin 1024) : k0_pay11 (F := Ideal) (ix2 r (0 : Fin 1)) = (⊥ : EReal) :=
  Cert.Consts.ofBits_neg_inf

/-- The start of the running weight sum is 0. -/
theorem start_sum (r : Fin 1024) : k0_pay12 (F := Ideal) (ix2 r (0 : Fin 1)) = ((0 : ℝ) : EReal) :=
  Cert.Consts.ofBits_zero

/-- The start of the running weighted value sum is 0. -/
theorem start_acc (r : Fin 1024) (j : Fin 128) : k0_pay13 (F := Ideal) (ix2 r j) = ((0 : ℝ) : EReal) :=
  Cert.Consts.ofBits_zero

include hq1 hk0 in
theorem max1_read (r : Fin 1024) :
    max1 q1 k0 (ix2 r (0 : Fin 1)) = ((botMax1 (1 / 8) Q1 K0 r : ℝ) : EReal) := by
  -- The larger of the bottom element and the row's largest score is the latter.
  have ht0 : k0_pay15 (F := Ideal) q1 k0 (ix1 r) = ((botMax1 (1 / 8) Q1 K0 r : ℝ) : EReal) :=
    rowmax_full (k0_pay14 q1 k0) (tileScore (1 / 8) Q1 K0) (score_read' q1 k0 Q1 K0 hq1 hk0) r
  unfold max1
  rw [newMax_read, start_max, ht0]
  exact max_eq_right bot_le

theorem scale1_read (r : Fin 1024) : scale1 q1 k0 (ix2 r (0 : Fin 1)) = ((0 : ℝ) : EReal) := by
  -- Bottom minus anything is bottom, whose exponential is 0.
  unfold scale1
  rw [rescale_read, start_max, EReal.bot_sub]
  rfl

include hq1 hk0 in
theorem wts1_read (r s : Fin 1024) :
    wts1 q1 k0 (ix2 r s) = ((botW1 (1 / 8) Q1 K0 r s : ℝ) : EReal) := by
  unfold wts1
  rw [weights_read, score_read' q1 k0 Q1 K0 hq1 hk0 r s, max1_read q1 k0 Q1 K0 hq1 hk0 r]
  rfl

include hq1 hk0 in
theorem sum1_read (r : Fin 1024) :
    sum1 q1 k0 (ix2 r (0 : Fin 1)) = ((∑ s : Fin 1024, botW1 (1 / 8) Q1 K0 r s : ℝ) : EReal) := by
  unfold sum1
  rw [newSum_coe _ _ _ r 0 0 (botW1 (1 / 8) Q1 K0 r) (scale1_read q1 k0 r) (start_sum r)
    (wts1_read q1 k0 Q1 K0 hq1 hk0 r), zero_mul, zero_add]

include hq1 hk0 hv0 in
theorem acc1_read (r : Fin 1024) (j : Fin 128) :
    acc1 q1 k0 v0 (ix2 r j) = ((∑ s : Fin 1024, botW1 (1 / 8) Q1 K0 r s * V0 s j : ℝ) : EReal) := by
  unfold acc1
  rw [newAcc_coe _ _ _ v0 r j 0 0 (botW1 (1 / 8) Q1 K0 r) (fun s => V0 s j) (scale1_read q1 k0 r) (start_acc r j)
    (wts1_read q1 k0 Q1 K0 hq1 hk0 r) (fun s => hv0 s j), zero_mul, zero_add]

include hq1 hk1 in
theorem msk_read (r s : Fin 1024) :
    msk q1 k1 (ix2 r s) = if s ≤ r then ((tileScore (1 / 8) Q1 K1 r s : ℝ) : EReal) else (⊥ : EReal) := by
  unfold msk maskedScores
  rw [masked_read, score_read q1 k1 Q1 K1 hq1 hk1 r s]

include hq1 hk0 hk1 in
theorem max2_read (r : Fin 1024) :
    max2 q1 k0 k1 (ix2 r (0 : Fin 1)) = ((botMax2 (1 / 8) Q1 K0 K1 r : ℝ) : EReal) := by
  have ht1 : rowMax (msk q1 k1) (ix1 r)
      = (((univ.filter fun s : Fin 1024 => s ≤ r).sup' ⟨r, by simp⟩ (tileScore (1 / 8) Q1 K1 r) : ℝ) : EReal) :=
    rowmax_masked (msk q1 k1) (tileScore (1 / 8) Q1 K1) (msk_read q1 k1 Q1 K1 hq1 hk1) r
  unfold max2
  rw [newMax_read, max1_read q1 k0 Q1 K0 hq1 hk0 r, ht1, max_coe]
  rfl

include hq1 hk0 hk1 in
theorem scale2_read (r : Fin 1024) :
    scale2 q1 k0 k1 (ix2 r (0 : Fin 1)) = ((botScale (1 / 8) Q1 K0 K1 r : ℝ) : EReal) := by
  unfold scale2
  rw [rescale_read, max1_read q1 k0 Q1 K0 hq1 hk0 r, max2_read q1 k0 k1 Q1 K0 K1 hq1 hk0 hk1 r]
  rfl

include hq1 hk0 hk1 in
theorem wts2_read (r s : Fin 1024) :
    wts2 q1 k0 k1 (ix2 r s) = ((botW2 (1 / 8) Q1 K0 K1 r s : ℝ) : EReal) := by
  -- Where the mask is set the weight is the exponential of a real difference; elsewhere bottom minus the
  -- maximum is bottom, whose exponential is 0.
  unfold wts2 botW2
  rw [weights_read, msk_read q1 k1 Q1 K1 hq1 hk1 r s, max2_read q1 k0 k1 Q1 K0 K1 hq1 hk0 hk1 r]
  by_cases h : s ≤ r
  · rw [if_pos h, if_pos h]; rfl
  · rw [if_neg h, if_neg h, EReal.bot_sub]; rfl

include hq1 hk0 hk1 in
theorem sum2_read (r : Fin 1024) :
    sum2 q1 k0 k1 (ix2 r (0 : Fin 1))
      = ((botScale (1 / 8) Q1 K0 K1 r * (∑ s : Fin 1024, botW1 (1 / 8) Q1 K0 r s)
          + ∑ s : Fin 1024, botW2 (1 / 8) Q1 K0 K1 r s : ℝ) : EReal) :=
  newSum_coe _ _ _ r _ _ (botW2 (1 / 8) Q1 K0 K1 r) (scale2_read q1 k0 k1 Q1 K0 K1 hq1 hk0 hk1 r)
    (sum1_read q1 k0 Q1 K0 hq1 hk0 r) (wts2_read q1 k0 k1 Q1 K0 K1 hq1 hk0 hk1 r)

include hq1 hk0 hk1 hv0 hv1 in
theorem acc2_read (r : Fin 1024) (j : Fin 128) :
    acc2 q1 k0 k1 v0 v1 (ix2 r j)
      = ((botScale (1 / 8) Q1 K0 K1 r * (∑ s : Fin 1024, botW1 (1 / 8) Q1 K0 r s * V0 s j)
          + ∑ s : Fin 1024, botW2 (1 / 8) Q1 K0 K1 r s * V1 s j : ℝ) : EReal) :=
  newAcc_coe _ _ _ v1 r j _ _ (botW2 (1 / 8) Q1 K0 K1 r) (fun s => V1 s j)
    (scale2_read q1 k0 k1 Q1 K0 K1 hq1 hk0 hk1 r) (acc1_read q1 k0 v0 Q1 K0 V0 hq1 hk0 hv0 r j)
    (wts2_read q1 k0 k1 Q1 K0 K1 hq1 hk0 hk1 r) (fun s => hv1 s j)

end Readings

/-- The weight sum after the two steps is positive: the first step's weights are exponentials, the factor is an
    exponential, and the second step's weights are exponentials or 0. -/
theorem botSum_pos (Q1 K0 K1 : Fin 1024 → Fin 128 → ℝ) (r : Fin 1024) :
    0 < botScale (1 / 8) Q1 K0 K1 r * (∑ s : Fin 1024, botW1 (1 / 8) Q1 K0 r s)
      + ∑ s : Fin 1024, botW2 (1 / 8) Q1 K0 K1 r s := by
  have h1 : 0 < ∑ s : Fin 1024, botW1 (1 / 8) Q1 K0 r s :=
    Finset.sum_pos (fun s _ => Real.exp_pos _) ⟨⟨0, by norm_num⟩, mem_univ _⟩
  have h2 : 0 ≤ ∑ s : Fin 1024, botW2 (1 / 8) Q1 K0 K1 r s :=
    Finset.sum_nonneg fun s _ => by
      unfold botW2
      split_ifs
      · exact (Real.exp_pos _).le
      · exact le_rfl
  have h3 : 0 < botScale (1 / 8) Q1 K0 K1 r := Real.exp_pos _
  exact add_pos_of_pos_of_nonneg (mul_pos h3 h1) h2

end BotSteps

open BotSteps in
/-- The full step on the top tiles then the masked step on the bottom tiles, read at output entry (0, r, d). -/
theorem bot_read (q1 k0 k1 v0 v1 : Vec Ideal S1024x128 .bf16) (Q1 K0 K1 V0 V1 : Fin 1024 → Fin 128 → ℝ)
    (hq1 : ∀ r d, q1 (ix2 r d) = ((Q1 r d : ℝ) : EReal))
    (hk0 : ∀ s d, k0 (ix2 s d) = ((K0 s d : ℝ) : EReal)) (hk1 : ∀ s d, k1 (ix2 s d) = ((K1 s d : ℝ) : EReal))
    (hv0 : ∀ s j, v0 (ix2 s j) = ((V0 s j : ℝ) : EReal)) (hv1 : ∀ s j, v1 (ix2 s j) = ((V1 s j : ℝ) : EReal))
    (r : Fin 1024) (d : Fin 64) :
    k0_pay1 (F := Ideal) (k0_pay16 q1 (k0_pay11 (F := Ideal)) (k0_pay12 (F := Ideal)) (k0_pay13 (F := Ideal)) v0
        (k0_pay14 q1 k0) (k0_pay15 q1 k0) k1 v1) (ix3 (0 : Fin 1) r d)
      = ((botOut (1 / 8) Q1 K0 K1 V0 V1 r (wide d) : ℝ) : EReal) := by
  -- The output block reads the payload's first 64 columns; the payload is the quotient of the two running sums,
  -- each a real number after the two steps, the divisor positive.
  refine (out_read _ r d).trans ?_
  rw [pay16_bot]
  exact quot_coe _ _ r (wide d) _ _ (botSum_pos Q1 K0 K1 r).ne'
    (acc2_read q1 k0 k1 v0 v1 Q1 K0 K1 V0 V1 hq1 hk0 hk1 hv0 hv1 r (wide d))
    (sum2_read q1 k0 k1 Q1 K0 K1 hq1 hk0 hk1 r)

end Cert.KernelIdeal.Ker

end
-- ==== Proof.KerBlock.lean ====
/-
  The two blocks of output rows one grid point stores, at a real sequence and real weights: the tiled
  arrangement on the tiles the projection fills.
-/
import proofs.«401925_j24807731101992_3_alg».proof.Proof.Gen.KernelIdeal.Skeleton
import proofs.«401925_j24807731101992_3_alg».proof.Proof.KerTerm
import proofs.«401925_j24807731101992_3_alg».proof.Proof.AttnSpec
import proofs.«401925_j24807731101992_3_alg».proof.Proof.Consts
import proofs.«401925_j24807731101992_3_alg».proof.Proof.LibVecRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«401925_j24807731101992_3_alg».proof.Proof.TileOps
import proofs.«401925_j24807731101992_3_alg».proof.Proof.KerProj
import proofs.«401925_j24807731101992_3_alg».proof.Proof.KerTop
import proofs.«401925_j24807731101992_3_alg».proof.Proof.KerBot

noncomputable section

namespace Cert.KernelIdeal.Ker

open Idealize.ShloMosaic Idealize.ShloMosaic.ValueIdx Idealize.SL.Sem Cert.KernelIdeal Cert.KernelIdeal.Gen Cert.Attn Finset

section
variable (x0 : Vec Ideal S1x2048x1024 .f32) (x3 : Vec Ideal S1024x384 .f32)
  (X : Fin 2048 → Fin 1024 → ℝ) (W : Fin 1024 → Fin 384 → ℝ)
  (hx : ∀ t e, x0 (ix3 (0 : Fin 1) t e) = ((X t e : ℝ) : EReal))
  (hw : ∀ e j, x3 (ix2 e j) = ((W e j : ℝ) : EReal))
include hx hw

/-- The first 1024 output rows: the first-tile result on the top tiles. -/
theorem blockTop_read (r : Fin 1024) (d : Fin 64) :
    blockTop (F := Ideal) x0 x3 (ix3 (0 : Fin 1) r d)
      = ((topOut (1 / 8) (tile X W lo qcol) (tile X W lo kcol) (tile X W lo vcol) r (wide d) : ℝ) : EReal) :=
  top_read _ _ _ _ _ _ (qTop_read x0 x3 X W hx hw) (kTop_read x0 x3 X W hx hw) (vTop_read x0 x3 X W hx hw) r d

/-- The last 1024 output rows: the second-tile result on the bottom query tile and both key and value tiles. -/
theorem blockBot_read (r : Fin 1024) (d : Fin 64) :
    blockBot (F := Ideal) x0 x3 (ix3 (0 : Fin 1) r d)
      = ((botOut (1 / 8) (tile X W hi qcol) (tile X W lo kcol) (tile X W hi kcol) (tile X W lo vcol) (tile X W hi vcol)
          r (wide d) : ℝ) : EReal) :=
  bot_read _ _ _ _ _ _ _ _ _ _ (qBot_read x0 x3 X W hx hw) (kTop_read x0 x3 X W hx hw) (kBot_read x0 x3 X W hx hw)
    (vTop_read x0 x3 X W hx hw) (vBot_read x0 x3 X W hx hw) r d

end

end Cert.KernelIdeal.Ker

end
-- ==== Proof.HostRead.lean ====
/-
  The host operations before the kernel, read at an entry: a weight matrix widened by 64 columns of a fill
  value, and three widened matrices laid side by side.
-/
import proofs.«401925_j24807731101992_3_alg».proof.Proof.Gen.KernelIdeal
import proofs.«401925_j24807731101992_3_alg».proof.Proof.AttnSpec
import Idealize.ShloMosaic.Lib.ValueIdx
import Idealize.ShloMosaic.Lib.Pipeline.Value
import Idealize.ShloMosaic.Lib.KernelVsHost

noncomputable section

namespace Cert.KernelIdeal.HostRead

open Idealize.ShloMosaic Idealize.ShloMosaic.ValueIdx Cert.KernelIdeal Cert.KernelIdeal.Gen Cert.Attn

/-- The fill value of the widening: the integer 0 converted, which is 0. -/
theorem fill_zero : (sitofp (F := Ideal) .f32 (constantI S_ 32 0#32)) ix0 = (0 : EReal) := by
  -- the conversion reads the word as a signed integer, and the word 0 reads as the integer 0
  show (((0#32 : BitVec 32).toInt : ℝ) : EReal) = 0
  simp

/-- A 1024 x 64 matrix widened to 128 columns, at (e, j): the matrix's entry in the first 64 columns, the fill after. -/
theorem pad_read {α : Type} (x : S1024x64.Idx → α) (z : S_.Idx → α) (e : Fin 1024) (j : Fin 128) :
    pad S1024x128 ![0, 0] ![0, 64] ![0, 0] x z pads_S1024x64_S1024x128_000_0640 h_S_ (ix2 e j)
      = if h : j.val < 64 then x (ix2 e ⟨j.val, h⟩) else z ix0 := by
  by_cases h : j.val < 64
  · -- inside the matrix: no low padding and no interior padding, so the coordinates are the matrix's own
    rw [dif_pos h]
    refine pad_apply_of_inside _ _ _ x z pads_S1024x64_S1024x128_000_0640 h_S_ (ix2 e j) (ix2 e ⟨j.val, h⟩) ?_
    intro a
    match a with
    | ⟨0, _⟩ => show e.val = 0 + e.val * (0 + 1); omega
    | ⟨1, _⟩ => show j.val = 0 + j.val * (0 + 1); omega
  · -- past the 64 columns of the matrix: the fill value, whose one index is the empty one
    rw [dif_neg h]
    rw [pad_apply_of_not_inside _ _ _ x z pads_S1024x64_S1024x128_000_0640 h_S_ (ix2 e j) (1 : Fin 2)
      (by
        intro hin
        have h3 : (j.val - 0) / (0 + 1) < 64 := hin.2.2
        simp at h3
        exact h h3)]
    exact congrArg z (eq_ix0 _)

/-- Three 1024 x 128 matrices side by side, at (e, j): the matrix whose 128 columns hold j, at column j mod 128. -/
theorem concat_read {α : Type} (a b c : S1024x128.Idx → α) (e : Fin 1024) (j : Fin 384) :
    concatenate S1024x384 1 [⟨S1024x128, a⟩, ⟨S1024x128, b⟩, ⟨S1024x128, c⟩] concatenates_S1024x128_S1024x128_S1024x128_S1024x384_d1 (ix2 e j)
      = if h : j.val < 128 then a (ix2 e ⟨j.val, h⟩)
        else if h' : j.val < 256 then b (ix2 e ⟨j.val - 128, by omega⟩)
        else c (ix2 e ⟨j.val - 256, by have := j.isLt; omega⟩) := by
  by_cases h : j.val < 128
  · -- the first piece: nothing before it
    rw [dif_pos h]
    exact concatenate_apply_piece (t := S1024x384) (1 : Fin 2) [⟨S1024x128, a⟩, ⟨S1024x128, b⟩, ⟨S1024x128, c⟩]
        concatenates_S1024x128_S1024x128_S1024x128_S1024x384_d1 (ix2 e j)
      0 (by simp) S1024x128 a rfl rfl 0 (by simp) (ix2 e ⟨j.val, h⟩)
      (by intro b hb; match b with | ⟨0, _⟩ => rfl | ⟨1, _⟩ => exact absurd rfl hb)
      (by show 0 + j.val = j.val; omega)
  · rw [dif_neg h]
    by_cases h' : j.val < 256
    · -- the second piece: 128 columns before it
      rw [dif_pos h']
      exact concatenate_apply_piece (t := S1024x384) (1 : Fin 2) [⟨S1024x128, a⟩, ⟨S1024x128, b⟩, ⟨S1024x128, c⟩]
        concatenates_S1024x128_S1024x128_S1024x128_S1024x384_d1 (ix2 e j)
        1 (by simp) S1024x128 b rfl rfl 128 (by simp) (ix2 e ⟨j.val - 128, by omega⟩)
        (by intro b hb; match b with | ⟨0, _⟩ => rfl | ⟨1, _⟩ => exact absurd rfl hb)
        (by show 128 + (j.val - 128) = j.val; omega)
    · -- the third piece: 256 columns before it
      rw [dif_neg h']
      exact concatenate_apply_piece (t := S1024x384) (1 : Fin 2) [⟨S1024x128, a⟩, ⟨S1024x128, b⟩, ⟨S1024x128, c⟩]
        concatenates_S1024x128_S1024x128_S1024x128_S1024x384_d1 (ix2 e j)
        2 (by simp) S1024x128 c rfl rfl 256 (by simp) (ix2 e ⟨j.val - 256, by have := j.isLt; omega⟩)
        (by intro b hb; match b with | ⟨0, _⟩ => rfl | ⟨1, _⟩ => exact absurd rfl hb)
        (by show 256 + (j.val - 256) = j.val; omega)

/-- The weights the kernel is launched with, at (e, j), from real weight matrices: the side-by-side layout. -/
theorem wcat_read (Wq Wk Wv : Fin 1024 → Fin 64 → ℝ) (x1 x2 x3 : FVec Ideal S1024x64 .f32)
    (h1 : ∀ e d, x1 (ix2 e d) = ((Wq e d : ℝ) : EReal))
    (h2 : ∀ e d, x2 (ix2 e d) = ((Wk e d : ℝ) : EReal))
    (h3 : ∀ e d, x3 (ix2 e d) = ((Wv e d : ℝ) : EReal))
    (z : FVec Ideal S_ .f32) (hz : z ix0 = 0) (e : Fin 1024) (j : Fin 384) :
    concatenate S1024x384 1
        [⟨S1024x128, pad S1024x128 ![0, 0] ![0, 64] ![0, 0] x1 z pads_S1024x64_S1024x128_000_0640 h_S_⟩,
         ⟨S1024x128, pad S1024x128 ![0, 0] ![0, 64] ![0, 0] x2 z pads_S1024x64_S1024x128_000_0640 h_S_⟩,
         ⟨S1024x128, pad S1024x128 ![0, 0] ![0, 64] ![0, 0] x3 z pads_S1024x64_S1024x128_000_0640 h_S_⟩]
        concatenates_S1024x128_S1024x128_S1024x128_S1024x384_d1 (ix2 e j)
      = ((wcat Wq Wk Wv e j : ℝ) : EReal) := by
  rw [concat_read]
  unfold wcat
  by_cases c1 : j.val < 128
  · -- the query part: the first 64 columns are Wq, the next 64 are the fill
    rw [dif_pos c1, pad_read]
    by_cases c2 : j.val < 64
    · rw [dif_pos (show (⟨j.val, c1⟩ : Fin 128).val < 64 from c2), dif_pos c2, h1]
    · rw [dif_neg (show ¬ (⟨j.val, c1⟩ : Fin 128).val < 64 from c2), hz, dif_neg c2,
        dif_neg (by omega), dif_neg (by omega)]
      rfl
  · rw [dif_neg c1]
    by_cases c3 : j.val < 256
    · -- the key part: columns 128 to 191 are Wk, the next 64 are the fill
      rw [dif_pos c3, pad_read]
      by_cases c4 : j.val < 192
      · rw [dif_pos (show (⟨j.val - 128, by omega⟩ : Fin 128).val < 64 by show j.val - 128 < 64; omega),
          dif_neg (by omega), dif_pos ⟨by omega, c4⟩, h2]
      · rw [dif_neg (show ¬ (⟨j.val - 128, by omega⟩ : Fin 128).val < 64 by show ¬ j.val - 128 < 64; omega), hz,
          dif_neg (by omega), dif_neg (by omega), dif_neg (by omega)]
        rfl
    · -- the value part: columns 256 to 319 are Wv, the last 64 are the fill
      rw [dif_neg c3, pad_read]
      have hj := j.isLt
      by_cases c5 : j.val < 320
      · rw [dif_pos (show (⟨j.val - 256, by omega⟩ : Fin 128).val < 64 by show j.val - 256 < 64; omega),
          dif_neg (by omega), dif_neg (by omega), dif_pos ⟨by omega, c5⟩, h3]
      · rw [dif_neg (show ¬ (⟨j.val - 256, by omega⟩ : Fin 128).val < 64 by show ¬ j.val - 256 < 64; omega), hz,
          dif_neg (by omega), dif_neg (by omega), dif_neg (by omega)]
        rfl

end Cert.KernelIdeal.HostRead

end
-- ==== Proof.Finite.lean ====
/-
  From the precondition to real numbers: where every entry of the four argument arrays is smaller in
  absolute value than plus infinity, every entry is a real number.
-/
import proofs.«401925_j24807731101992_3_alg».proof.Pre_finite_inputs
import proofs.«401925_j24807731101992_3_alg».proof.Proof.Gen.Pre_finite_inputs
import proofs.«401925_j24807731101992_3_alg».proof.Proof.Consts
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- A truth value as a one-bit word is the word 1 exactly when it is true. -/
theorem ofBool_eq_one_iff (b : Bool) : BitVec.ofBool b = 1#1 ↔ b = true := by cases b <;> decide

/-- An extended real whose absolute value, max x (-x), is below the top element is neither infinity,
    hence the image of a real number. -/
theorem coe_toReal_of_abs_lt_top (x : EReal) (h : max x (-x) < ⊤) : x = ((x.toReal : ℝ) : EReal) := by
  have h1 : x ≠ ⊤ := by rintro rfl; simp at h
  have h2 : x ≠ ⊥ := by rintro rfl; simp at h
  exact (EReal.coe_toReal h1 h2).symm

/-- Where the comparison "absolute value of the entry < the spread-out pattern of plus infinity" gives the
    word 1 at an index, the entry there is the image of a real number. -/
theorem real_of_word {s : Shape} (a : FVec Ideal s .f32) (hb : S_.BroadcastsInDim s ![]) (i : s.Idx)
    (h : cmpf .olt (Host.absf a) (broadcastInDim s ![] hb (constant S_ .f32 0x7F800000#32)) i = 1#1) :
    a i = (((a i).toReal : ℝ) : EReal) := by
  -- at an index: the comparison of max x (-x) with what the pattern denotes, which is the top element
  have h' : Ideal.cmp .olt (max (a i) (-(a i))) (Ideal.ofBits .f32 0x7F800000#32) = 1#1 := h
  rw [Cert.Consts.ofBits_pos_inf] at h'
  exact coe_toReal_of_abs_lt_top _ (of_decide_eq_true ((ofBool_eq_one_iff _).1 h'))

/-- An and-reduction over all axes of such a comparison array giving 1 makes every entry a real. -/
theorem real_of_all {s : Shape} {axes : List (Fin s.rank)} (a : FVec Ideal s .f32) (hb : S_.BroadcastsInDim s ![])
    (hr : s.ReducesTo axes S_) (hu : 0 < S_.numel)
    (h : Host.reduce IntOp.andi
        (cmpf .olt (Host.absf a) (broadcastInDim s ![] hb (constant S_ .f32 0x7F800000#32)))
        (constantI S_ 1 1#1) hr hu ix0 = 1#1) (i : s.Idx) :
    a i = (((a i).toReal : ℝ) : EReal) :=
  real_of_word a hb i (Host.reduce_andi_all _ _ hr hu ix0 h i)

/-- The precondition holding of four arrays of extended reals gives real arrays they are the images of. -/
theorem reals_of_pre (a0 : FVec Ideal S8x2048x1024 .f32) (a1 a2 a3 : FVec Ideal S1024x64 .f32)
    (h : Cert.Pre_finite_inputs.fn (F := Ideal) a0 a1 a2 a3 = fun _ => 1#1) :
    (∃ X : Fin 8 → Fin 2048 → Fin 1024 → ℝ, ∀ b t e, a0 (ix3 b t e) = ((X b t e : ℝ) : EReal))
    ∧ (∃ Wq : Fin 1024 → Fin 64 → ℝ, ∀ e d, a1 (ix2 e d) = ((Wq e d : ℝ) : EReal))
    ∧ (∃ Wk : Fin 1024 → Fin 64 → ℝ, ∀ e d, a2 (ix2 e d) = ((Wk e d : ℝ) : EReal))
    ∧ (∃ Wv : Fin 1024 → Fin 64 → ℝ, ∀ e d, a3 (ix2 e d) = ((Wv e d : ℝ) : EReal)) := by
  -- the precondition at its one index: the four all-reductions joined by and
  have h0 := congrFun h ix0
  dsimp only [Cert.Pre_finite_inputs.fn, Cert.Pre_finite_inputs.fn_part1] at h0
  obtain ⟨h012, hd⟩ := IntOp.andi_eq_one.1 h0
  obtain ⟨h01, hc⟩ := IntOp.andi_eq_one.1 h012
  obtain ⟨ha, hb⟩ := IntOp.andi_eq_one.1 h01
  -- each array's witness is its entries' real parts
  exact ⟨⟨fun b t e => (a0 (ix3 b t e)).toReal, fun b t e => real_of_all a0 _ _ _ ha (ix3 b t e)⟩,
    ⟨fun e d => (a1 (ix2 e d)).toReal, fun e d => real_of_all a1 _ _ _ hb (ix2 e d)⟩,
    ⟨fun e d => (a2 (ix2 e d)).toReal, fun e d => real_of_all a2 _ _ _ hc (ix2 e d)⟩,
    ⟨fun e d => (a3 (ix2 e d)).toReal, fun e d => real_of_all a3 _ _ _ hd (ix2 e d)⟩⟩

end Cert.Finite

end
-- ==== Proof.RefRead.lean ====
/-
  The reference program's result at real inputs: entry (b, t, d) is row t of plain attention on sequence b.
-/
import proofs.«401925_j24807731101992_3_alg».proof.Proof.AttnSpec
import proofs.«401925_j24807731101992_3_alg».proof.Proof.Gen.ReferenceIdeal.Read
import Idealize.ShloMosaic.Lib.ValueIdx
import Idealize.ShloMosaic.PureOps.Ideal.Laws
import Idealize.ShloMosaic.Lib.StableHlo.Predicate
import proofs.«401925_j24807731101992_3_alg».proof.Proof.Consts

noncomputable section

namespace Cert.ReferenceIdeal.RefRead

open Idealize.ShloMosaic Idealize.ShloMosaic.ValueIdx Cert.ReferenceIdeal Cert.ReferenceIdeal.Gen Cert.Attn

/-! ## Extended-real sums, the masked running maximum, the mask's words -/

/-- A finite sum of real numbers, each read as an extended real, is the real sum read as an extended real. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The running maximum from the bottom element over all positions, of the real f u at the positions u ≤ t and
    the bottom element elsewhere, is the largest f u over u ≤ t. -/
theorem fold_max_masked {n : ℕ} (t : Fin n) (f : Fin n → ℝ) :
    (Finset.univ : Finset (Fin n)).fold max (⊥ : EReal) (fun u => if u ≤ t then ((f u : ℝ) : EReal) else ⊥)
      = (((Finset.univ.filter fun u : Fin n => u ≤ t).sup' ⟨t, by simp⟩ f : ℝ) : EReal) := by
  apply le_antisymm
  · rw [Finset.fold_max_le]
    refine ⟨bot_le, fun u _ => ?_⟩
    by_cases hu : u ≤ t
    · rw [if_pos hu]
      have hm : u ∈ Finset.univ.filter (fun v : Fin n => v ≤ t) := Finset.mem_filter.2 ⟨Finset.mem_univ u, hu⟩
      exact EReal.coe_le_coe_iff.2 (Finset.le_sup' f hm)
    · rw [if_neg hu]; exact bot_le
  · rw [Finset.le_fold_max]
    obtain ⟨u, hu, e⟩ := Finset.exists_mem_eq_sup' (⟨t, by simp⟩ : (Finset.univ.filter fun u : Fin n => u ≤ t).Nonempty) f
    refine Or.inr ⟨u, Finset.mem_univ _, ?_⟩
    rw [if_pos (Finset.mem_filter.1 hu).2, e]

/-- Row t against column u, both below 2048, as 32-bit words: "row plus zero is at least column", signed, says u ≤ t. -/
theorem mask_word (t u : Fin 2048) :
    IntOp.cmpi .sge (IntOp.addi (BitVec.ofNat 32 t.val) 0#32) (BitVec.ofNat 32 u.val) = 1#1 ↔ u ≤ t := by
  have ht := t.isLt
  have hu := u.isLt
  have e : IntOp.addi (BitVec.ofNat 32 t.val) 0#32 = BitVec.ofNat 32 t.val := by
    unfold IntOp.addi; exact BitVec.add_zero _
  rw [e, StableHlo.Predicate.sge_iff_toNat (by rw [BitVec.toNat_ofNat]; omega) (by rw [BitVec.toNat_ofNat]; omega),
    BitVec.toNat_ofNat, BitVec.toNat_ofNat, Nat.mod_eq_of_lt (by omega), Nat.mod_eq_of_lt (by omega)]
  exact Iff.rfl

/-! ## The stages, each read at an index as a real number of the plain arrangement -/

/-- A contraction of the real sequence b with a real weight matrix over the 1024 features, read through index maps
    that pick entry (b, t, k) on the left and (k, d) on the right, is the projection's entry (t, d). -/
theorem proj_read (X : Fin 8 → Fin 2048 → Fin 1024 → ℝ) (W : Fin 1024 → Fin 64 → ℝ)
    (x0 : (⟨S8x2048x1024, .f32⟩ : BufTy).Contents (Elt Ideal)) (xw : (⟨S1024x64, .f32⟩ : BufTy).Contents (Elt Ideal))
    (h0 : ∀ b t e, x0 (ix3 b t e) = ((X b t e : ℝ) : EReal))
    (hw : ∀ e d, xw (ix2 e d) = ((W e d : ℝ) : EReal))
    (b : Fin 8) (t : Fin 2048) (d : Fin 64) (l : Fin 1024 → S8x2048x1024.Idx) (r : Fin 1024 → S1024x64.Idx)
    (hl : ∀ k, l k = ix3 b t k) (hr : ∀ k, r k = ix2 k d) :
    ∑ k : Fin 1024, x0 (l k) * xw (r k) = ((proj (X b) W t d : ℝ) : EReal) := by
  unfold proj
  rw [← coe_sum]
  refine Finset.sum_congr rfl fun k _ => ?_
  rw [hl k, hr k, h0, hw]
  exact (EReal.coe_mul _ _).symm

/-- The first projection stage (the program feeds it the query weights), at any real weight matrix. -/
theorem v0_read (X : Fin 8 → Fin 2048 → Fin 1024 → ℝ) (W : Fin 1024 → Fin 64 → ℝ)
    (x0 : (⟨S8x2048x1024, .f32⟩ : BufTy).Contents (Elt Ideal)) (xw : (⟨S1024x64, .f32⟩ : BufTy).Contents (Elt Ideal))
    (h0 : ∀ b t e, x0 (ix3 b t e) = ((X b t e : ℝ) : EReal))
    (hw : ∀ e d, xw (ix2 e d) = ((W e d : ℝ) : EReal)) (b : Fin 8) (t : Fin 2048) (d : Fin 64) :
    Read.val_main_v0 (F := Ideal) x0 xw (ix3 b t d) = ((proj (X b) W t d : ℝ) : EReal) := by
  rw [Read.val_main_v0_apply]
  exact proj_read X W x0 xw h0 hw b t d _ _ (fun k => funext fun a => Fin.ext (by match a with | ⟨0, _⟩ => rfl | ⟨1, _⟩ => rfl | ⟨2, _⟩ => rfl)) (fun k => funext fun a => Fin.ext (by match a with | ⟨0, _⟩ => rfl | ⟨1, _⟩ => rfl))

/-- The second projection stage (the program feeds it the key weights), at any real weight matrix. -/
theorem v1_read (X : Fin 8 → Fin 2048 → Fin 1024 → ℝ) (W : Fin 1024 → Fin 64 → ℝ)
    (x0 : (⟨S8x2048x1024, .f32⟩ : BufTy).Contents (Elt Ideal)) (xw : (⟨S1024x64, .f32⟩ : BufTy).Contents (Elt Ideal))
    (h0 : ∀ b t e, x0 (ix3 b t e) = ((X b t e : ℝ) : EReal))
    (hw : ∀ e d, xw (ix2 e d) = ((W e d : ℝ) : EReal)) (b : Fin 8) (t : Fin 2048) (d : Fin 64) :
    Read.val_main_v1 (F := Ideal) x0 xw (ix3 b t d) = ((proj (X b) W t d : ℝ) : EReal) := by
  rw [Read.val_main_v1_apply]
  exact proj_read X W x0 xw h0 hw b t d _ _ (fun k => funext fun a => Fin.ext (by match a with | ⟨0, _⟩ => rfl | ⟨1, _⟩ => rfl | ⟨2, _⟩ => rfl)) (fun k => funext fun a => Fin.ext (by match a with | ⟨0, _⟩ => rfl | ⟨1, _⟩ => rfl))

/-- The third projection stage (the program feeds it the value weights), at any real weight matrix. -/
theorem v2_read (X : Fin 8 → Fin 2048 → Fin 1024 → ℝ) (W : Fin 1024 → Fin 64 → ℝ)
    (x0 : (⟨S8x2048x1024, .f32⟩ : BufTy).Contents (Elt Ideal)) (xw : (⟨S1024x64, .f32⟩ : BufTy).Contents (Elt Ideal))
    (h0 : ∀ b t e, x0 (ix3 b t e) = ((X b t e : ℝ) : EReal))
    (hw : ∀ e d, xw (ix2 e d) = ((W e d : ℝ) : EReal)) (b : Fin 8) (t : Fin 2048) (d : Fin 64) :
    Read.val_main_v2 (F := Ideal) x0 xw (ix3 b t d) = ((proj (X b) W t d : ℝ) : EReal) := by
  rw [Read.val_main_v2_apply]
  exact proj_read X W x0 xw h0 hw b t d _ _ (fun k => funext fun a => Fin.ext (by match a with | ⟨0, _⟩ => rfl | ⟨1, _⟩ => rfl | ⟨2, _⟩ => rfl)) (fun k => funext fun a => Fin.ext (by match a with | ⟨0, _⟩ => rfl | ⟨1, _⟩ => rfl))

/-- The unscaled scores: query row t against key row u, contracted over the 64 columns. -/
theorem v3_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v3 (F := Ideal) x0 x1 x2 (ix3 b t u)
      = ((∑ d : Fin 64, proj (X b) Wq t d * proj (X b) Wk u d : ℝ) : EReal) := by
  rw [Read.val_main_v3_apply, ← coe_sum]
  refine Finset.sum_congr rfl fun k _ => ?_
  have el : Read.lidx_main_v3 (ix3 b t u) k = ix3 b t k := funext fun a => Fin.ext (by match a with | ⟨0, _⟩ => rfl | ⟨1, _⟩ => rfl | ⟨2, _⟩ => rfl)
  have er : Read.ridx_main_v3 (ix3 b t u) k = ix3 b u k := funext fun a => Fin.ext (by match a with | ⟨0, _⟩ => rfl | ⟨1, _⟩ => rfl | ⟨2, _⟩ => rfl)
  rw [el, er, v0_read X Wq x0 x1 h0 h1, v1_read X Wk x0 x2 h0 h2]
  exact (EReal.coe_mul _ _).symm

/-- The scaled scores: the constant's pattern denotes 1/8. -/
theorem v5_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v5 (F := Ideal) x0 x1 x2 (ix3 b t u) = ((score (X b) Wq Wk (1 / 8) t u : ℝ) : EReal) := by
  rw [Read.val_main_v5_apply, Read.val_main_v4_apply, Read.val_main_cst_apply, v3_read X Wq Wk x0 x1 x2 h0 h1 h2,
    Ideal.ofBits_def, Cert.Consts.ofBits_eighth, Ideal.mulf_def]
  exact (EReal.coe_mul _ _).symm

/-- The lower-triangular mask: true at (t, u) exactly when u ≤ t. -/
theorem v7_read (t u : Fin 2048) :
    Read.val_main_v7 (F := Ideal) (ix2 t u) = if u ≤ t then 1#1 else 0#1 := by
  rw [Read.val_main_v7_apply, Read.val_main_call0_v4_apply, Read.val_main_call0_v2_apply, Read.val_main_call0_v0_apply,
    Read.val_main_call0_v1_apply, Read.val_main_call0_c_apply, Read.val_main_call0_v3_apply, Read.val_main_v6_apply,
    Read.val_main_c_apply, Read.val_main_call0_v5_apply, Read.val_main_call0_c_0_apply]
  change (if IntOp.cmpi .sge (IntOp.addi (BitVec.ofNat 32 t.val) 0#32) (BitVec.ofNat 32 u.val) = 1#1 then 1#1 else 0#1) = _
  by_cases h : u ≤ t
  · rw [if_pos h, if_pos ((mask_word t u).2 h)]
  · rw [if_neg h, if_neg (mt (mask_word t u).1 h)]

/-- The masked scores: the scaled score where u ≤ t, the bottom element elsewhere. -/
theorem v8_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v8 (F := Ideal) x0 x1 x2 (ix3 b t u)
      = if u ≤ t then ((score (X b) Wq Wk (1 / 8) t u : ℝ) : EReal) else ⊥ := by
  have ei : Read.idx_main_call1_v1 (ix3 b t u) = ix2 t u := funext fun a => Fin.ext (by match a with | ⟨0, _⟩ => rfl | ⟨1, _⟩ => rfl)
  rw [Read.val_main_v8_apply, Read.val_main_call1_v1_apply, Read.val_main_call1_v2_apply, Read.val_main_call1_v0_apply,
    Read.val_main_cst_0_apply, v5_read X Wq Wk x0 x1 x2 h0 h1 h2, ei, v7_read, Ideal.ofBits_def, Cert.Consts.ofBits_neg_inf]
  unfold Scalar.select
  by_cases h : u ≤ t
  · rw [if_pos h, if_pos h, if_pos (show (1#1 : BitVec 1) = 1 from rfl)]
  · rw [if_neg h, if_neg h, if_neg (show ¬ (0#1 : BitVec 1) = 1 by decide)]

/-- The row maximum: the running maximum from the bottom element over the masked scores of row t is the largest
    score among the positions u ≤ t. -/
theorem v9_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t : Fin 2048) :
    Read.val_main_v9 (F := Ideal) x0 x1 x2 (ix2 b t) = ((rowMax (X b) Wq Wk (1 / 8) t : ℝ) : EReal) := by
  have h : S8x2048x2048.Reduces [2] S8x2048 := by decide
  unfold Read.val_main_v9
  rw [Host.reduce_eq_fold_single FloatOps.maximumf _ _ Facts₀.reducesTo_S8x2048x2048_S8x2048_d2 h Facts₀.h_S_,
    Read.val_main_cst_1_apply, Ideal.ofBits_def, Cert.Consts.ofBits_neg_inf]
  have e : (Read.val_main_v8 (F := Ideal) x0 x1 x2 ∘ h.lift (ix2 b t))
      = fun u : Fin 2048 => if u ≤ t then ((score (X b) Wq Wk (1 / 8) t u : ℝ) : EReal) else ⊥ := by
    funext u
    have ei : h.lift (ix2 b t) u = ix3 b t u := funext fun a => Fin.ext (by match a with | ⟨0, _⟩ => rfl | ⟨1, _⟩ => rfl | ⟨2, _⟩ => rfl)
    show Read.val_main_v8 (F := Ideal) x0 x1 x2 (h.lift (ix2 b t) u) = _
    rw [ei]
    exact v8_read X Wq Wk x0 x1 x2 h0 h1 h2 b t u
  rw [e]
  exact fold_max_masked t _

/-- The bottom element joined with the row maximum is the row maximum. -/
theorem v11_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t : Fin 2048) :
    Read.val_main_v11 (F := Ideal) x0 x1 x2 (ix2 b t) = ((rowMax (X b) Wq Wk (1 / 8) t : ℝ) : EReal) := by
  rw [Read.val_main_v11_apply, v9_read X Wq Wk x0 x1 x2 h0 h1 h2, Read.val_main_v10_apply, Read.val_main_cst_2_apply, Ideal.ofBits_def,
    Cert.Consts.ofBits_neg_inf, Ideal.maximumf_def]
  exact max_eq_right bot_le

/-- The row maximum spread along the row. -/
theorem v13_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v13 (F := Ideal) x0 x1 x2 (ix3 b t u) = ((rowMax (X b) Wq Wk (1 / 8) t : ℝ) : EReal) := by
  have e1 : Read.idx_main_v12 (Read.idx_main_v13 (ix3 b t u)) = ix2 b t := funext fun a => Fin.ext (by match a with | ⟨0, _⟩ => rfl | ⟨1, _⟩ => rfl)
  rw [Read.val_main_v13_apply, Read.val_main_v12_apply, e1]
  exact v11_read X Wq Wk x0 x1 x2 h0 h1 h2 b t

/-- The unnormalised weights: the exponential of the shifted score where u ≤ t; elsewhere the bottom element
    less a real is the bottom element, whose exponential is zero. -/
theorem v15_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v15 (F := Ideal) x0 x1 x2 (ix3 b t u) = ((weight (X b) Wq Wk (1 / 8) t u : ℝ) : EReal) := by
  rw [Read.val_main_v15_apply, Read.val_main_v14_apply, v8_read X Wq Wk x0 x1 x2 h0 h1 h2, v13_read X Wq Wk x0 x1 x2 h0 h1 h2, Ideal.subf_def,
    Ideal.hostUnary_exp_def]
  unfold weight
  by_cases h : u ≤ t
  · rw [if_pos h, if_pos h, ← EReal.coe_sub, Ideal.exp_coe]
  · rw [if_neg h, if_neg h, EReal.bot_sub, Ideal.exp_bot, EReal.coe_zero]

/-- The weight sum of row t: zero plus the sum of the weights. -/
theorem v16_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t : Fin 2048) :
    Read.val_main_v16 (F := Ideal) x0 x1 x2 (ix2 b t)
      = ((∑ u : Fin 2048, weight (X b) Wq Wk (1 / 8) t u : ℝ) : EReal) := by
  rw [Read.val_main_v16_apply, Read.val_main_cst_3_apply, Ideal.ofBits_def, Cert.Consts.ofBits_zero, zero_add, ← coe_sum]
  refine Finset.sum_congr rfl fun k _ => ?_
  have ei : Read.idx_main_v16 (ix2 b t) k = ix3 b t k := funext fun a => Fin.ext (by match a with | ⟨0, _⟩ => rfl | ⟨1, _⟩ => rfl | ⟨2, _⟩ => rfl)
  rw [ei]
  exact v15_read X Wq Wk x0 x1 x2 h0 h1 h2 b t k

/-- The weight sum spread along the row. -/
theorem v18_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v18 (F := Ideal) x0 x1 x2 (ix3 b t u)
      = ((∑ u' : Fin 2048, weight (X b) Wq Wk (1 / 8) t u' : ℝ) : EReal) := by
  have e1 : Read.idx_main_v17 (Read.idx_main_v18 (ix3 b t u)) = ix2 b t := funext fun a => Fin.ext (by match a with | ⟨0, _⟩ => rfl | ⟨1, _⟩ => rfl)
  rw [Read.val_main_v18_apply, Read.val_main_v17_apply, e1]
  exact v16_read X Wq Wk x0 x1 x2 h0 h1 h2 b t

/-- The weight sum of a row is positive: every weight is nonnegative and the diagonal one is an exponential. -/
theorem weight_sum_pos (X : Fin 2048 → Fin 1024 → ℝ) (Wq Wk : Fin 1024 → Fin 64 → ℝ) (c : ℝ) (t : Fin 2048) :
    0 < ∑ u : Fin 2048, weight X Wq Wk c t u := by
  refine Finset.sum_pos' (fun u _ => ?_) ⟨t, Finset.mem_univ _, ?_⟩
  · unfold weight
    by_cases h : u ≤ t
    · rw [if_pos h]; exact (Real.exp_pos _).le
    · rw [if_neg h]
  · unfold weight
    rw [if_pos le_rfl]; exact Real.exp_pos _

/-- The normalised weights: division by the positive real weight sum is the real quotient. -/
theorem v19_read (X : Fin 8 → Fin 2048 → Fin 1024 → ℝ) (Wq Wk : Fin 1024 → Fin 64 → ℝ)
    (x0 : (⟨S8x2048x1024, .f32⟩ : BufTy).Contents (Elt Ideal)) (x1 x2 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (b : Fin 8) (t u : Fin 2048) :
    Read.val_main_v19 (F := Ideal) x0 x1 x2 (ix3 b t u)
      = ((weight (X b) Wq Wk (1 / 8) t u / ∑ u' : Fin 2048, weight (X b) Wq Wk (1 / 8) t u' : ℝ) : EReal) := by
  rw [Read.val_main_v19_apply, v15_read X Wq Wk x0 x1 x2 h0 h1 h2, v18_read X Wq Wk x0 x1 x2 h0 h1 h2, Ideal.hostDivf_def,
    Ideal.div_coe (weight_sum_pos (X b) Wq Wk (1 / 8) t).ne', ← EReal.coe_mul, mul_one_div]

/-- At arrays whose entries are real numbers the reference's last stage, read at (b, t, d), is the plain
    arrangement's entry (t, d) on sequence b, with the scale 1/8. -/
theorem ref_read (X : Fin 8 → Fin 2048 → Fin 1024 → ℝ) (Wq Wk Wv : Fin 1024 → Fin 64 → ℝ)
    (x0 : (⟨S8x2048x1024, .f32⟩ : BufTy).Contents (Elt Ideal)) (x1 x2 x3 : (⟨S1024x64, .f32⟩ : BufTy).Contents (Elt Ideal))
    (h0 : ∀ b t e, x0 (ix3 b t e) = ((X b t e : ℝ) : EReal))
    (h1 : ∀ e d, x1 (ix2 e d) = ((Wq e d : ℝ) : EReal))
    (h2 : ∀ e d, x2 (ix2 e d) = ((Wk e d : ℝ) : EReal))
    (h3 : ∀ e d, x3 (ix2 e d) = ((Wv e d : ℝ) : EReal))
    (b : Fin 8) (t : Fin 2048) (d : Fin 64) :
    Cert.ReferenceIdeal.Read.val_main_v20 (F := Ideal) x0 x1 x2 x3 (ix3 b t d)
      = ((plainOut (X b) Wq Wk Wv (1 / 8) t d : ℝ) : EReal) := by
  rw [Read.val_main_v20_apply]
  unfold plainOut
  rw [← coe_sum]
  refine Finset.sum_congr rfl fun k _ => ?_
  have el : Read.lidx_main_v20 (ix3 b t d) k = ix3 b t k := funext fun a => Fin.ext (by match a with | ⟨0, _⟩ => rfl | ⟨1, _⟩ => rfl | ⟨2, _⟩ => rfl)
  have er : Read.ridx_main_v20 (ix3 b t d) k = ix3 b k d := funext fun a => Fin.ext (by match a with | ⟨0, _⟩ => rfl | ⟨1, _⟩ => rfl | ⟨2, _⟩ => rfl)
  rw [el, er, v19_read X Wq Wk x0 x1 x2 h0 h1 h2, v2_read X Wv x0 x3 h0 h3]
  exact (EReal.coe_mul _ _).symm

end Cert.ReferenceIdeal.RefRead

end
-- ==== Proof.AttnJoin.lean ====
/-
  The tiled arrangement of causal attention, run on the tiles the widened projection fills, gives the plain
  arrangement's rows.
-/
import proofs.«401925_j24807731101992_3_alg».proof.Proof.AttnSpec

noncomputable section

namespace Cert.Attn

open Finset

namespace Join

/-! ## Sums over positions and over columns, split into halves -/

/-- A sum over the 2048 positions is the sum over the rows of the first tile plus the sum over the rows of
    the second tile. -/
theorem sum_halves (f : Fin 2048 → ℝ) :
    ∑ u : Fin 2048, f u = ∑ s : Fin 1024, f (lo s) + ∑ s : Fin 1024, f (hi s) :=
  Fin.sum_univ_add (a := 1024) (b := 1024) f

/-- A sum over the 128 columns of a widened part is the sum over the 64 true columns plus the sum over the
    64 added ones. -/
theorem sum_cols (g : Fin 128 → ℝ) :
    ∑ d : Fin 128, g d = ∑ d : Fin 64, g (wide d) + ∑ d : Fin 64, g (Fin.natAdd 64 d : Fin (64 + 64)) :=
  Fin.sum_univ_add (a := 64) (b := 64) g

/-- A sum of quotients by one number, each times a factor, is the sum of the products over that number
    (true for every divisor, zero included, since division by zero gives zero). -/
theorem sum_div_mul (w v : Fin 2048 → ℝ) (L : ℝ) :
    ∑ u : Fin 2048, w u / L * v u = (∑ u : Fin 2048, w u * v u) / L := by
  rw [div_eq_mul_inv, Finset.sum_mul]
  exact Finset.sum_congr rfl fun u _ => by rw [div_eq_mul_inv, mul_right_comm]

/-- Two suprema over finite sets agree when every term of each is below some term of the other. -/
theorem sup'_eq_sup' {α β : Type*} {s : Finset α} {t : Finset β} (hs : s.Nonempty) (ht : t.Nonempty)
    (f : α → ℝ) (g : β → ℝ) (h1 : ∀ a ∈ s, ∃ b ∈ t, f a ≤ g b) (h2 : ∀ b ∈ t, ∃ a ∈ s, g b ≤ f a) :
    s.sup' hs f = t.sup' ht g := by
  apply le_antisymm
  · refine Finset.sup'_le hs f fun a ha => ?_
    obtain ⟨b, hb, h⟩ := h1 a ha
    exact h.trans (Finset.le_sup' g hb)
  · refine Finset.sup'_le ht g fun b hb => ?_
    obtain ⟨a, ha, h⟩ := h2 b hb
    exact h.trans (Finset.le_sup' f ha)

/-! ## The order of positions, read on the two halves -/

theorem lo_le_lo {s r : Fin 1024} : lo s ≤ lo r ↔ s ≤ r := Iff.rfl

theorem hi_le_hi {s r : Fin 1024} : hi s ≤ hi r ↔ s ≤ r := by
  simp only [hi, Fin.le_def]; omega

theorem lo_le_hi (s r : Fin 1024) : lo s ≤ hi r := by
  have := s.isLt
  simp only [lo, hi, Fin.le_def]; omega

theorem not_hi_le_lo (s r : Fin 1024) : ¬ hi s ≤ lo r := by
  have := r.isLt
  simp only [lo, hi, Fin.le_def]; omega

/-! ## The widened projection: true columns and added zero columns -/

section Proj

variable (X : Fin 2048 → Fin 1024 → ℝ) (Wq Wk Wv : Fin 1024 → Fin 64 → ℝ) (c : ℝ)

theorem wcat_q (e : Fin 1024) (d : Fin 64) : wcat Wq Wk Wv e (qcol (wide d)) = Wq e d := by
  have h : (qcol (wide d)).val < 64 := d.isLt
  unfold wcat
  rw [dif_pos h]
  rfl

theorem wcat_k (e : Fin 1024) (d : Fin 64) : wcat Wq Wk Wv e (kcol (wide d)) = Wk e d := by
  have hv : (kcol (wide d)).val = 128 + d.val := rfl
  have := d.isLt
  unfold wcat
  rw [dif_neg (by omega), dif_pos (by omega)]
  congr 1
  apply Fin.ext
  simp only [hv]; omega

theorem wcat_v (e : Fin 1024) (d : Fin 64) : wcat Wq Wk Wv e (vcol (wide d)) = Wv e d := by
  have hv : (vcol (wide d)).val = 256 + d.val := rfl
  have := d.isLt
  unfold wcat
  rw [dif_neg (by omega), dif_neg (by omega), dif_pos (by omega)]
  congr 1
  apply Fin.ext
  simp only [hv]; omega

/-- An added column of the query part is a zero column of the widened matrix. -/
theorem wcat_q_hi (e : Fin 1024) (d : Fin 64) :
    wcat Wq Wk Wv e (qcol (Fin.natAdd 64 d : Fin (64 + 64))) = 0 := by
  have hv : (qcol (Fin.natAdd 64 d : Fin (64 + 64))).val = 64 + d.val := rfl
  have := d.isLt
  unfold wcat
  rw [dif_neg (by omega), dif_neg (by omega), dif_neg (by omega)]

theorem proj_q (t : Fin 2048) (d : Fin 64) :
    proj X (wcat Wq Wk Wv) t (qcol (wide d)) = proj X Wq t d := by
  unfold proj
  exact Finset.sum_congr rfl fun e _ => by rw [wcat_q]

theorem proj_k (t : Fin 2048) (d : Fin 64) :
    proj X (wcat Wq Wk Wv) t (kcol (wide d)) = proj X Wk t d := by
  unfold proj
  exact Finset.sum_congr rfl fun e _ => by rw [wcat_k]

theorem proj_v (t : Fin 2048) (d : Fin 64) :
    proj X (wcat Wq Wk Wv) t (vcol (wide d)) = proj X Wv t d := by
  unfold proj
  exact Finset.sum_congr rfl fun e _ => by rw [wcat_v]

/-- The product with a zero column is zero. -/
theorem proj_q_hi (t : Fin 2048) (d : Fin 64) :
    proj X (wcat Wq Wk Wv) t (qcol (Fin.natAdd 64 d : Fin (64 + 64))) = 0 := by
  unfold proj
  exact Finset.sum_eq_zero fun e _ => by rw [wcat_q_hi, mul_zero]

/-- The score of a query tile's row against a key tile's row is the plain score of the two positions: the
    sum over the 128 columns keeps the 64 true ones, the query being zero on the others. -/
theorem tileScore_eq (h1 h2 : Fin 1024 → Fin 2048) (r s : Fin 1024) :
    tileScore c (tile X (wcat Wq Wk Wv) h1 qcol) (tile X (wcat Wq Wk Wv) h2 kcol) r s
      = score X Wq Wk c (h1 r) (h2 s) := by
  unfold tileScore score tile
  rw [sum_cols]
  have h0 : ∑ d : Fin 64, proj X (wcat Wq Wk Wv) (h1 r) (qcol (Fin.natAdd 64 d : Fin (64 + 64)))
      * proj X (wcat Wq Wk Wv) (h2 s) (kcol (Fin.natAdd 64 d : Fin (64 + 64))) = 0 :=
    Finset.sum_eq_zero fun d _ => by rw [proj_q_hi, zero_mul]
  have h1' : ∑ d : Fin 64, proj X (wcat Wq Wk Wv) (h1 r) (qcol (wide d))
      * proj X (wcat Wq Wk Wv) (h2 s) (kcol (wide d)) = ∑ d : Fin 64, proj X Wq (h1 r) d * proj X Wk (h2 s) d :=
    Finset.sum_congr rfl fun d _ => by rw [proj_q, proj_k]
  rw [h0, h1', add_zero]

/-- A value tile read at a true column is the plain value projection. -/
theorem tile_v (h : Fin 1024 → Fin 2048) (s : Fin 1024) (d : Fin 64) :
    tile X (wcat Wq Wk Wv) h vcol s (wide d) = proj X Wv (h s) d := by
  unfold tile
  exact proj_v X Wq Wk Wv (h s) d

/-! ## The first tile: maximum and weights -/

/-- The masked maximum of row r of the first tile is the row maximum of position lo r: the positions
    u ≤ lo r are the lo s with s ≤ r, and the scores agree. -/
theorem topMax_eq (r : Fin 1024) :
    topMax c (tile X (wcat Wq Wk Wv) lo qcol) (tile X (wcat Wq Wk Wv) lo kcol) r = rowMax X Wq Wk c (lo r) := by
  unfold topMax rowMax
  apply sup'_eq_sup'
  · intro s hs
    have hs' : s ≤ r := (Finset.mem_filter.1 hs).2
    exact ⟨lo s, Finset.mem_filter.2 ⟨Finset.mem_univ _, lo_le_lo.2 hs'⟩, (tileScore_eq X Wq Wk Wv c lo lo r s).le⟩
  · intro u hu
    have hu' : u ≤ lo r := (Finset.mem_filter.1 hu).2
    have hlt : u.val < 1024 := lt_of_le_of_lt (Fin.le_def.1 hu') r.isLt
    have hul : lo ⟨u.val, hlt⟩ = u := rfl
    refine ⟨⟨u.val, hlt⟩, Finset.mem_filter.2 ⟨Finset.mem_univ _, ?_⟩, ?_⟩
    · exact Fin.le_def.2 (Fin.le_def.1 hu')
    · rw [tileScore_eq, hul]

/-- On the first tile's own half the plain weights of row lo r are the tile's weights. -/
theorem weight_lo_lo (r s : Fin 1024) :
    weight X Wq Wk c (lo r) (lo s)
      = topW c (tile X (wcat Wq Wk Wv) lo qcol) (tile X (wcat Wq Wk Wv) lo kcol) r s := by
  unfold weight topW
  rw [tileScore_eq, topMax_eq]
  by_cases h : s ≤ r
  · rw [if_pos h, if_pos (lo_le_lo.2 h)]
  · rw [if_neg h, if_neg (fun h' => h (lo_le_lo.1 h'))]

/-- Row lo r gives no weight to the second half: those positions lie above the diagonal. -/
theorem weight_lo_hi (r s : Fin 1024) : weight X Wq Wk c (lo r) (hi s) = 0 := by
  unfold weight
  rw [if_neg (not_hi_le_lo s r)]

/-! ## The second tile: maxima, rescaling and weights -/

/-- The maximum after both steps is the row maximum of position hi r: the positions u ≤ hi r are all the
    lo s together with the hi s, s ≤ r, and the supremum over the union is the larger of the two suprema. -/
theorem botMax2_eq (r : Fin 1024) :
    botMax2 c (tile X (wcat Wq Wk Wv) hi qcol) (tile X (wcat Wq Wk Wv) lo kcol) (tile X (wcat Wq Wk Wv) hi kcol) r
      = rowMax X Wq Wk c (hi r) := by
  unfold botMax2 botMax1 rowMax
  apply le_antisymm
  · apply max_le
    · refine Finset.sup'_le _ _ fun s _ => ?_
      have hm : lo s ∈ univ.filter (fun u : Fin 2048 => u ≤ hi r) :=
        Finset.mem_filter.2 ⟨Finset.mem_univ _, lo_le_hi s r⟩
      rw [tileScore_eq]
      exact Finset.le_sup' (score X Wq Wk c (hi r)) hm
    · refine Finset.sup'_le _ _ fun s hs => ?_
      have hs' : s ≤ r := (Finset.mem_filter.1 hs).2
      have hm : hi s ∈ univ.filter (fun u : Fin 2048 => u ≤ hi r) :=
        Finset.mem_filter.2 ⟨Finset.mem_univ _, hi_le_hi.2 hs'⟩
      rw [tileScore_eq]
      exact Finset.le_sup' (score X Wq Wk c (hi r)) hm
  · refine Finset.sup'_le _ _ fun u hu => ?_
    have hu' : u ≤ hi r := (Finset.mem_filter.1 hu).2
    rcases lt_or_ge u.val 1024 with hlt | hge
    · have hul : lo ⟨u.val, hlt⟩ = u := rfl
      apply le_max_of_le_left
      refine le_trans (le_of_eq ?_) (Finset.le_sup' _ (Finset.mem_univ (⟨u.val, hlt⟩ : Fin 1024)))
      rw [tileScore_eq, hul]
    · have hlt : u.val - 1024 < 1024 := by have := u.isLt; omega
      have hul : hi ⟨u.val - 1024, hlt⟩ = u := by
        apply Fin.ext
        simp only [hi]; omega
      have hur : u.val ≤ 1024 + r.val := Fin.le_def.1 hu'
      have hsr : (⟨u.val - 1024, hlt⟩ : Fin 1024) ≤ r := Fin.le_def.2 (by show u.val - 1024 ≤ r.val; omega)
      have hm : (⟨u.val - 1024, hlt⟩ : Fin 1024) ∈ univ.filter (fun s : Fin 1024 => s ≤ r) :=
        Finset.mem_filter.2 ⟨Finset.mem_univ _, hsr⟩
      apply le_max_of_le_right
      refine le_trans (le_of_eq ?_) (Finset.le_sup' _ hm)
      rw [tileScore_eq, hul]

/-- On the first half, the plain weight of row hi r is the first step's weight rescaled:
    exp (m₁ - m₂) * exp (x - m₁) = exp (x - m₂). -/
theorem weight_hi_lo (r s : Fin 1024) :
    weight X Wq Wk c (hi r) (lo s)
      = botScale c (tile X (wcat Wq Wk Wv) hi qcol) (tile X (wcat Wq Wk Wv) lo kcol) (tile X (wcat Wq Wk Wv) hi kcol) r
        * botW1 c (tile X (wcat Wq Wk Wv) hi qcol) (tile X (wcat Wq Wk Wv) lo kcol) r s := by
  unfold weight botScale botW1
  rw [if_pos (lo_le_hi s r), ← Real.exp_add, botMax2_eq, tileScore_eq]
  congr 1
  ring

/-- On the second half, the plain weight of row hi r is the second step's masked weight. -/
theorem weight_hi_hi (r s : Fin 1024) :
    weight X Wq Wk c (hi r) (hi s)
      = botW2 c (tile X (wcat Wq Wk Wv) hi qcol) (tile X (wcat Wq Wk Wv) lo kcol) (tile X (wcat Wq Wk Wv) hi kcol) r s := by
  unfold weight botW2
  rw [tileScore_eq, botMax2_eq]
  by_cases h : s ≤ r
  · rw [if_pos h, if_pos (hi_le_hi.2 h)]
  · rw [if_neg h, if_neg (fun h' => h (hi_le_hi.1 h'))]

/-- Row t of plain attention as one quotient: the weighted value sum over the weight sum. -/
theorem plainOut_eq (t : Fin 2048) (d : Fin 64) :
    plainOut X Wq Wk Wv c t d
      = (∑ u : Fin 2048, weight X Wq Wk c t u * proj X Wv u d) / (∑ u : Fin 2048, weight X Wq Wk c t u) := by
  unfold plainOut
  exact sum_div_mul _ _ _

end Proj

end Join

open Join

/-- A row of the first tile: one masked step on the top tiles is row lo r of plain attention. -/
theorem top_join (X : Fin 2048 → Fin 1024 → ℝ) (Wq Wk Wv : Fin 1024 → Fin 64 → ℝ) (c : ℝ) (r : Fin 1024) (d : Fin 64) :
    topOut c (tile X (wcat Wq Wk Wv) lo qcol) (tile X (wcat Wq Wk Wv) lo kcol) (tile X (wcat Wq Wk Wv) lo vcol) r (wide d)
      = plainOut X Wq Wk Wv c (lo r) d := by
  rw [plainOut_eq]
  unfold topOut
  -- the weight sum: the second half contributes nothing
  have hL : ∑ u : Fin 2048, weight X Wq Wk c (lo r) u
      = ∑ s : Fin 1024, topW c (tile X (wcat Wq Wk Wv) lo qcol) (tile X (wcat Wq Wk Wv) lo kcol) r s := by
    rw [sum_halves, Finset.sum_eq_zero (fun s _ => weight_lo_hi X Wq Wk c r s), add_zero]
    exact Finset.sum_congr rfl fun s _ => weight_lo_lo X Wq Wk Wv c r s
  -- the weighted value sum, likewise
  have hN : ∑ u : Fin 2048, weight X Wq Wk c (lo r) u * proj X Wv u d
      = ∑ s : Fin 1024, topW c (tile X (wcat Wq Wk Wv) lo qcol) (tile X (wcat Wq Wk Wv) lo kcol) r s
          * tile X (wcat Wq Wk Wv) lo vcol s (wide d) := by
    have h0 : ∑ s : Fin 1024, weight X Wq Wk c (lo r) (hi s) * proj X Wv (hi s) d = 0 :=
      Finset.sum_eq_zero fun s _ => by rw [weight_lo_hi, zero_mul]
    rw [sum_halves, h0, add_zero]
    exact Finset.sum_congr rfl fun s _ => by rw [weight_lo_lo X Wq Wk Wv c r s, tile_v]
  rw [hL, hN]

/-- A row of the second tile: the full step on the top tiles followed by the masked step on the bottom tiles
    is row hi r of plain attention. -/
theorem bot_join (X : Fin 2048 → Fin 1024 → ℝ) (Wq Wk Wv : Fin 1024 → Fin 64 → ℝ) (c : ℝ) (r : Fin 1024) (d : Fin 64) :
    botOut c (tile X (wcat Wq Wk Wv) hi qcol) (tile X (wcat Wq Wk Wv) lo kcol) (tile X (wcat Wq Wk Wv) hi kcol)
        (tile X (wcat Wq Wk Wv) lo vcol) (tile X (wcat Wq Wk Wv) hi vcol) r (wide d)
      = plainOut X Wq Wk Wv c (hi r) d := by
  rw [plainOut_eq]
  unfold botOut
  -- the weight sum: the first half is the rescaled first step, the second half the second step
  have hL : ∑ u : Fin 2048, weight X Wq Wk c (hi r) u
      = botScale c (tile X (wcat Wq Wk Wv) hi qcol) (tile X (wcat Wq Wk Wv) lo kcol) (tile X (wcat Wq Wk Wv) hi kcol) r
          * (∑ s : Fin 1024, botW1 c (tile X (wcat Wq Wk Wv) hi qcol) (tile X (wcat Wq Wk Wv) lo kcol) r s)
        + ∑ s : Fin 1024, botW2 c (tile X (wcat Wq Wk Wv) hi qcol) (tile X (wcat Wq Wk Wv) lo kcol)
            (tile X (wcat Wq Wk Wv) hi kcol) r s := by
    rw [sum_halves, Finset.mul_sum]
    congr 1
    · exact Finset.sum_congr rfl fun s _ => weight_hi_lo X Wq Wk Wv c r s
    · exact Finset.sum_congr rfl fun s _ => weight_hi_hi X Wq Wk Wv c r s
  -- the weighted value sum, likewise
  have hN : ∑ u : Fin 2048, weight X Wq Wk c (hi r) u * proj X Wv u d
      = botScale c (tile X (wcat Wq Wk Wv) hi qcol) (tile X (wcat Wq Wk Wv) lo kcol) (tile X (wcat Wq Wk Wv) hi kcol) r
          * (∑ s : Fin 1024, botW1 c (tile X (wcat Wq Wk Wv) hi qcol) (tile X (wcat Wq Wk Wv) lo kcol) r s
              * tile X (wcat Wq Wk Wv) lo vcol s (wide d))
        + ∑ s : Fin 1024, botW2 c (tile X (wcat Wq Wk Wv) hi qcol) (tile X (wcat Wq Wk Wv) lo kcol)
            (tile X (wcat Wq Wk Wv) hi kcol) r s * tile X (wcat Wq Wk Wv) hi vcol s (wide d) := by
    rw [sum_halves, Finset.mul_sum]
    congr 1
    · exact Finset.sum_congr rfl fun s _ => by rw [weight_hi_lo X Wq Wk Wv c r s, tile_v, mul_assoc]
    · exact Finset.sum_congr rfl fun s _ => by rw [weight_hi_hi X Wq Wk Wv c r s, tile_v]
  rw [hL, hN]

end Cert.Attn

end
-- ==== Proof.Bridge.lean ====
/-
  The two idealized programs compute one array.

  At real inputs, entry (b, t, d) of the kernel's output array is what the body left at point b in row t: for a row
  of the first tile the one-step result, for a row of the second tile the two-step result, on the tiles the
  projection of sequence b with the widened weights fills; both are row t of plain attention on sequence b, which
  is what the reference's last stage holds at (b, t, d). The precondition makes every input entry a real number.
-/
import proofs.«401925_j24807731101992_3_alg».proof.Defs
import proofs.«401925_j24807731101992_3_alg».proof.Proof.KiValue
import proofs.«401925_j24807731101992_3_alg».proof.Proof.KFrame
import Idealize.ShloMosaic.PureOps.IdealRules
import proofs.«401925_j24807731101992_3_alg».proof.Proof.KerBlock
import proofs.«401925_j24807731101992_3_alg».proof.Proof.HostRead
import proofs.«401925_j24807731101992_3_alg».proof.Proof.Finite
import proofs.«401925_j24807731101992_3_alg».proof.Proof.RefRead
import proofs.«401925_j24807731101992_3_alg».proof.Proof.AttnJoin
import proofs.«401925_j24807731101992_3_alg».proof.Proof.Gen.ReferenceIdeal.Run
import proofs.«401925_j24807731101992_3_alg».proof.Proof.Gen.ReferenceIdeal.Read

set_option maxRecDepth 16384

noncomputable section

namespace Cert.KernelIdeal.Fr

open Idealize.ShloMosaic Idealize.ShloMosaic.TcCoe Idealize.ShloMosaic.ValueIdx
open Idealize.SL Idealize.SL.Sem
open Cert.KernelIdeal Cert.KernelIdeal.Gen Cert.KernelIdeal.Ker Cert.KernelIdeal.HostRead Cert.Attn

/-- The kernel's run with its output array named: after it the result buffer holds what the schedule assembled
    from the points' blocks, and the four arguments are as they were. -/
theorem run_named {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

section Real

variable (m : (ℓ : Loc nD τ sig) → Buf (Elt Ideal) ℓ) (c : Dev nD)
  (X : Fin 8 → Fin 2048 → Fin 1024 → ℝ) (Wq Wk Wv : Fin 1024 → Fin 64 → ℝ)
  (h0 : ∀ b t e, m ((c.tc : Thread nD τ).loc main_arg0) (ix3 b t e) = ((X b t e : ℝ) : EReal))
  (h1 : ∀ e d, m ((c.tc : Thread nD τ).loc main_arg1) (ix2 e d) = ((Wq e d : ℝ) : EReal))
  (h2 : ∀ e d, m ((c.tc : Thread nD τ).loc main_arg2) (ix2 e d) = ((Wk e d : ℝ) : EReal))
  (h3 : ∀ e d, m ((c.tc : Thread nD τ).loc main_arg3) (ix2 e d) = ((Wv e d : ℝ) : EReal))
include h0 h1 h2 h3

/-- The sequence block at point b holds sequence b. -/
theorem xblk_real (b : Fin 8) (t : Fin 2048) (e : Fin 1024) :
    iblk m c 0 (pt b) (ix3 (0 : Fin 1) t e) = ((X b t e : ℝ) : EReal) :=
  (xblk_entry m c b t e).trans (h0 b t e)

/-- The weight block holds the three matrices side by side, each widened by zero columns. -/
theorem wblk_real (t : Fin cfg0.N) (e : Fin 1024) (j : Fin 384) :
    iblk m c 1 t (ix2 e j) = ((wcat Wq Wk Wv e j : ℝ) : EReal) := by
  refine (wblk_entry m c t e j).trans ?_
  rw [V_main_v3]
  exact wcat_read Wq Wk Wv _ _ _ h1 h2 h3 _ fill_zero e j

/-- Entry (b, t, d) of the kernel's output array: row t of plain attention on sequence b. -/
theorem ker_entry (b : Fin 8) (t : Fin 2048) (d : Fin 64) :
    (dats m 0 c).arrAt 2 cfg0.N (ix3 b t d) = ((plainOut (X b) Wq Wk Wv (1 / 8) t d : ℝ) : EReal) := by
  rw [out_entry]
  by_cases ht : t.val < 1024
  · obtain ⟨r, rfl⟩ : ∃ r : Fin 1024, t = lo r := ⟨⟨t.val, ht⟩, Fin.ext rfl⟩
    rw [outAt_top]
    refine (blockTop_read (iblk m c 0 (pt b)) (iblk m c 1 (pt b)) (X b) (wcat Wq Wk Wv)
      (xblk_real m c X Wq Wk Wv h0 h1 h2 h3 b) (wblk_real m c X Wq Wk Wv h0 h1 h2 h3 (pt b)) r d).trans ?_
    rw [top_join]
  · have ht' : t.val - 1024 < 1024 := by have := t.isLt; omega
    obtain ⟨r, rfl⟩ : ∃ r : Fin 1024, t = hi r :=
      ⟨⟨t.val - 1024, ht'⟩, Fin.ext (by show t.val = 1024 + (t.val - 1024); omega)⟩
    rw [outAt_bot]
    refine (blockBot_read (iblk m c 0 (pt b)) (iblk m c 1 (pt b)) (X b) (wcat Wq Wk Wv)
      (xblk_real m c X Wq Wk Wv h0 h1 h2 h3 b) (wblk_real m c X Wq Wk Wv h0 h1 h2 h3 (pt b)) r d).trans ?_
    rw [bot_join]

end Real

end Cert.KernelIdeal.Fr

/-! ## The claims -/

namespace Cert.Proof.Claims

open Idealize.ShloMosaic Idealize.ShloMosaic.TcCoe Idealize.ShloMosaic.ValueIdx Idealize.SL.Sem

/-- The kernel as printed runs to the end and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The idealized reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two mask fills the idealization names: the table gives the name the value minus infinity, and the
    printed constant is that value over the extended reals. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- Over the extended reals, from memories agreeing on the four finite arguments, the idealized kernel and the
    idealized reference end with one array: entry by entry both hold plain causal attention. -/
theorem algebraic : Cert.algebraic_KernelIdeal_ReferenceIdeal := by
  intro m ρ m' ρ' hpre hagree
  refine ⟨fun c => (Cert.KernelIdeal.Fr.dats m 0 c).arrAt 2 Cert.KernelIdeal.cfg0.N, Cert.KernelIdeal.Fr.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  obtain ⟨⟨X, h0⟩, ⟨Wq, h1⟩, ⟨Wk, h2⟩, ⟨Wv, h3⟩⟩ := Cert.Finite.reals_of_pre _ _ _ _ (hpre c)
  funext i
  obtain ⟨b, t, d, rfl⟩ : ∃ (b : Fin 8) (t : Fin 2048) (d : Fin 64), i = ix3 b t d := ⟨i 0, i 1, i 2, eq_ix3 i⟩
  exact (Cert.ReferenceIdeal.RefRead.ref_read X Wq Wk Wv _ _ _ _ h0 h1 h2 h3 b t d).trans
    (Cert.KernelIdeal.Fr.ker_entry m c X Wq Wk Wv h0 h1 h2 h3 b t d).symm

end Cert.Proof.Claims

end
-- ==== Proof.lean ====
/-
  Single-head causal attention over 8 sequences of 2048 positions, embedding width 1024 and head width 64: a fused
  kernel against the plain formula.

  The kernel widens each of the three weight matrices by 64 zero columns, lays them side by side and, per sequence,
  projects once onto the 384 columns, keeps the query, key and value projections in scratch, and computes the
  attention output in two tiles of 1024 rows by the running-maximum scheme: each key tile's scores are shifted by
  the largest score met so far, what was accumulated before is rescaled by the exponential of the change of that
  maximum, and the weighted value sum is divided by the weight sum at the end. The upper-right tile is never
  computed; on the two diagonal tiles the scores above the diagonal are replaced by a fill that stands for minus
  infinity. The reference masks the full score matrix with minus infinity above the diagonal, subtracts each row's
  maximum, exponentiates, divides by the row sum, and multiplies by the values.

  Over the extended reals, at finite inputs, both are sum over u ≤ t of exp (s t u - M t) v u, divided by the sum
  over u ≤ t of exp (s t u - M t), with s the scaled scores and M t the largest score of row t among u ≤ t: the
  zero columns add nothing to a score, exp (a - b) exp (s - a) = exp (s - b) undoes the rescaling, the fill's
  weights are exp of minus infinity, which is 0, and dividing each weight by the row sum before or after the sum
  over u is the same for a real row sum. Both kernel programs run to the end and leave their arguments unchanged;
  the idealization names the two fills minus infinity.
-/
import proofs.«401925_j24807731101992_3_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
